-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_v3)) (v4 : (c : Dev Cert.KernelIdeal.nD) → Buf (Elt Ideal) ((c.tc : Thread Cert.KernelIdeal.nD Cert.KernelIdeal.τ).loc Cert.KernelIdeal.main_v4)) (v5 : (c : Dev Cert.KernelIdeal.nD) → Buf (Elt Ideal) ((c.tc : Thread Cert.KernelIdeal.nD Cert.KernelIdeal.τ).loc Cert.KernelIdeal.main_v5)) (v6 : (c : Dev Cert.KernelIdeal.nD) → Buf (Elt Ideal) ((c.tc : Thread Cert.KernelIdeal.nD Cert.KernelIdeal.τ).loc Cert.KernelIdeal.main_v6)) (v7 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_v4) = v4 c
          ∧ r.2.mem ((c.tc : Thread Cert.KernelIdeal.nD Cert.KernelIdeal.τ).loc Cert.KernelIdeal.main_v5) = v5 c
          ∧ r.2.mem ((c.tc : Thread Cert.KernelIdeal.nD Cert.KernelIdeal.τ).loc Cert.KernelIdeal.main_v6) = v6 c
          ∧ r.2.mem ((c.tc : Thread Cert.KernelIdeal.nD Cert.KernelIdeal.τ).loc Cert.KernelIdeal.main_v7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_v3) = v3 c
          ∧ r.2.mem ((c.tc : Thread Cert.ReferenceIdeal.nD Cert.ReferenceIdeal.τ).loc Cert.ReferenceIdeal.main_v4) = v4 c
          ∧ r.2.mem ((c.tc : Thread Cert.ReferenceIdeal.nD Cert.ReferenceIdeal.τ).loc Cert.ReferenceIdeal.main_v5) = v5 c
          ∧ r.2.mem ((c.tc : Thread Cert.ReferenceIdeal.nD Cert.ReferenceIdeal.τ).loc Cert.ReferenceIdeal.main_v6) = v6 c
          ∧ r.2.mem ((c.tc : Thread Cert.ReferenceIdeal.nD Cert.ReferenceIdeal.τ).loc Cert.ReferenceIdeal.main_v7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S1024x1024 : Shape := ⟨2, ![1024, 1024]⟩
abbrev S2048x1024 : Shape := ⟨2, ![2048, 1024]⟩
abbrev S4096x1024 : Shape := ⟨2, ![4096, 1024]⟩
abbrev S1536x1024 : Shape := ⟨2, ![1536, 1024]⟩
abbrev S768x1024 : Shape := ⟨2, ![768, 1024]⟩
abbrev S3072x1024 : Shape := ⟨2, ![3072, 1024]⟩
abbrev S2560x1024 : Shape := ⟨2, ![2560, 1024]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1536x1024 : S_.BroadcastsInDim S1536x1024 (![] : Fin 0 → Fin S1536x1024.rank)
  reducesTo_S1536x1024_S_d0_1 : S1536x1024.ReducesTo [0, 1] S_
  bcast_S_S768x1024 : S_.BroadcastsInDim S768x1024 (![] : Fin 0 → Fin S768x1024.rank)
  reducesTo_S768x1024_S_d0_1 : S768x1024.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S2560x1024 : S_.BroadcastsInDim S2560x1024 (![] : Fin 0 → Fin S2560x1024.rank)
  reducesTo_S2560x1024_S_d0_1 : S2560x1024.ReducesTo [0, 1] S_

variable [Facts]

def fn_part4 {F : FTy → Type} [FloatOps F] (main_arg14 : FVec F S2560x1024 .f32) (main_arg15 : FVec F S1024x1024 .f32) (main_v63 : IVec S_ 1) (main_v67 : IVec S_ 1) : IVec S_ 1 :=
  let main_v68 : IVec S_ 1 := andi main_v63 main_v67
  let main_v69 : FVec F S2560x1024 .f32 := Host.absf main_arg14
  let main_cst_26 : FVec F S_ .f32 := constant S_ .f32 0x7F800000#32
  let main_v70 : FVec F S2560x1024 .f32 := broadcastInDim S2560x1024 ![] bcast_S_S2560x1024 main_cst_26
  let main_v71 : IVec S2560x1024 1 := cmpf .olt main_v69 main_v70
  let main_c_27 : IVec S_ 1 := constantI S_ 1 1#1
  let main_v72 : IVec S_ 1 := (fun x v => Host.reduce IntOp.andi x v reducesTo_S2560x1024_S_d0_1 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  main_v78

def fn_part3 {F : FTy → Type} [FloatOps F] (main_arg11 : FVec F S1024x1024 .f32) (main_arg12 : FVec F S3072x1024 .f32) (main_arg13 : FVec F S1024x1024 .f32) (main_arg14 : FVec F S2560x1024 .f32) (main_arg15 : FVec F S1024x1024 .f32) (main_v48 : IVec S_ 1) (main_v49 : FVec F S768x1024 .f32) (main_v50 : FVec F S768x1024 .f32) : IVec S_ 1 :=
  let main_v51 : IVec S768x1024 1 := cmpf .olt main_v49 main_v50
  let main_c_19 : IVec S_ 1 := constantI S_ 1 1#1
  let main_v52 : IVec S_ 1 := (fun x v => Host.reduce IntOp.andi x v reducesTo_S768x1024_S_d0_1 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S3072x1024 .f32 := Host.absf main_arg12
  let main_cst_22 : FVec F S_ .f32 := constant S_ .f32 0x7F800000#32
  let main_v60 : FVec F S3072x1024 .f32 := broadcastInDim S3072x1024 ![] bcast_S_S3072x1024 main_cst_22
  let main_v61 : IVec S3072x1024 1 := cmpf .olt main_v59 main_v60
  let main_c_23 : IVec S_ 1 := constantI S_ 1 1#1
  let main_v62 : IVec S_ 1 := (fun x v => Host.reduce IntOp.andi x v reducesTo_S3072x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_v63 main_v67

def fn_part2 {F : FTy → Type} [FloatOps F] (main_arg7 : FVec F S1024x1024 .f32) (main_arg8 : FVec F S1536x1024 .f32) (main_arg9 : FVec F S1024x1024 .f32) (main_arg10 : FVec F S768x1024 .f32) (main_arg11 : FVec F S1024x1024 .f32) (main_arg12 : FVec F S3072x1024 .f32) (main_arg13 : FVec F S1024x1024 .f32) (main_arg14 : FVec F S2560x1024 .f32) (main_arg15 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1536x1024 .f32 := Host.absf main_arg8
  let main_cst_14 : FVec F S_ .f32 := constant S_ .f32 0x7F800000#32
  let main_v40 : FVec F S1536x1024 .f32 := broadcastInDim S1536x1024 ![] bcast_S_S1536x1024 main_cst_14
  let main_v41 : IVec S1536x1024 1 := cmpf .olt main_v39 main_v40
  let main_c_15 : IVec S_ 1 := constantI S_ 1 1#1
  let main_v42 : IVec S_ 1 := (fun x v => Host.reduce IntOp.andi x v reducesTo_S1536x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S768x1024 .f32 := Host.absf main_arg10
  let main_cst_18 : FVec F S_ .f32 := constant S_ .f32 0x7F800000#32
  let main_v50 : FVec F S768x1024 .f32 := broadcastInDim S768x1024 ![] bcast_S_S768x1024 main_cst_18
  fn_part3 (F := F) main_arg11 main_arg12 main_arg13 main_arg14 main_arg15 main_v48 main_v49 main_v50

def fn_part1 {F : FTy → Type} [FloatOps F] (main_arg4 : FVec F S2048x1024 .f32) (main_arg5 : FVec F S1024x1024 .f32) (main_arg6 : FVec F S4096x1024 .f32) (main_arg7 : FVec F S1024x1024 .f32) (main_arg8 : FVec F S1536x1024 .f32) (main_arg9 : FVec F S1024x1024 .f32) (main_arg10 : FVec F S768x1024 .f32) (main_arg11 : FVec F S1024x1024 .f32) (main_arg12 : FVec F S3072x1024 .f32) (main_arg13 : FVec F S1024x1024 .f32) (main_arg14 : FVec F S2560x1024 .f32) (main_arg15 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S512x1024 .f32) (main_arg1 : FVec F S1024x1024 .f32) (main_arg2 : FVec F S1024x1024 .f32) (main_arg3 : FVec F S1024x1024 .f32) (main_arg4 : FVec F S2048x1024 .f32) (main_arg5 : FVec F S1024x1024 .f32) (main_arg6 : FVec F S4096x1024 .f32) (main_arg7 : FVec F S1024x1024 .f32) (main_arg8 : FVec F S1536x1024 .f32) (main_arg9 : FVec F S1024x1024 .f32) (main_arg10 : FVec F S768x1024 .f32) (main_arg11 : FVec F S1024x1024 .f32) (main_arg12 : FVec F S3072x1024 .f32) (main_arg13 : FVec F S1024x1024 .f32) (main_arg14 : FVec F S2560x1024 .f32) (main_arg15 : FVec F S1024x1024 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S512x1024 : Shape := ⟨2, ![512, 1024]⟩
abbrev S1024x1024 : Shape := ⟨2, ![1024, 1024]⟩
abbrev S2048x1024 : Shape := ⟨2, ![2048, 1024]⟩
abbrev S4096x1024 : Shape := ⟨2, ![4096, 1024]⟩
abbrev S1536x1024 : Shape := ⟨2, ![1536, 1024]⟩
abbrev S768x1024 : Shape := ⟨2, ![768, 1024]⟩
abbrev S3072x1024 : Shape := ⟨2, ![3072, 1024]⟩
abbrev S2560x1024 : Shape := ⟨2, ![2560, 1024]⟩
abbrev S256x1024 : Shape := ⟨2, ![256, 1024]⟩

abbrev nBuf : Space → Nat
  | .hbm => 24
  | .vmem => 40
  | .smem => 0
  | _ => 0

abbrev bufTy : (tb : Table) → Fin (tcTables nBuf tb) → BufTy
  | .hbm, ⟨0, _⟩ => ⟨S512x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1536x1024, .f32⟩
  | .hbm, ⟨9, _⟩ => ⟨S1024x1024, .f32⟩
  | .hbm, ⟨10, _⟩ => ⟨S768x1024, .f32⟩
  | .hbm, ⟨11, _⟩ => ⟨S1024x1024, .f32⟩
  | .hbm, ⟨12, _⟩ => ⟨S3072x1024, .f32⟩
  | .hbm, ⟨13, _⟩ => ⟨S1024x1024, .f32⟩
  | .hbm, ⟨14, _⟩ => ⟨S2560x1024, .f32⟩
  | .hbm, ⟨15, _⟩ => ⟨S1024x1024, .f32⟩
  | .hbm, ⟨16, _⟩ => ⟨S512x1024, .f32⟩
  | .hbm, ⟨17, _⟩ => ⟨S1024x1024, .f32⟩
  | .hbm, ⟨18, _⟩ => ⟨S2048x1024, .f32⟩
  | .hbm, ⟨19, _⟩ => ⟨S4096x1024, .f32⟩
  | .hbm, ⟨20, _⟩ => ⟨S1536x1024, .f32⟩
  | .hbm, ⟨21, _⟩ => ⟨S768x1024, .f32⟩
  | .hbm, ⟨22, _⟩ => ⟨S3072x1024, .f32⟩
  | .hbm, ⟨23, _⟩ => ⟨S2560x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1024x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1024x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S1024x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S1024x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S1024x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S1024x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S1024x1024, .f32⟩
  | .local _ .vmem, ⟨38, _⟩ => ⟨S256x1024, .f32⟩
  | .local _ .vmem, ⟨39, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![6], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![3], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1024x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S256x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![12], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1024x1024 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S256x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S256x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1024x1024 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S256x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S512x1024.size a
  hwx0_0 : ∀ i : grid0.Coords, EltTy.bits .f32 = 32 ∨ (Rect.block (s := S512x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S512x1024.size a
  hwx0_2 : ∀ i : grid0.Coords, EltTy.bits .f32 = 32 ∨ (Rect.block (s := S512x1024) S256x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S1024x1024.size a
  hwx1_0 : ∀ i : grid1.Coords, EltTy.bits .f32 = 32 ∨ (Rect.block (s := S1024x1024) S256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S1024x1024.size a
  hwx1_2 : ∀ i : grid1.Coords, EltTy.bits .f32 = 32 ∨ (Rect.block (s := S1024x1024) S256x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S2048x1024.size a
  hwx2_0 : ∀ i : grid2.Coords, EltTy.bits .f32 = 32 ∨ (Rect.block (s := S2048x1024) S256x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1024.size a ≤ S2048x1024.size a
  hwx2_2 : ∀ i : grid2.Coords, EltTy.bits .f32 = 32 ∨ (Rect.block (s := S2048x1024) S256x1024.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x1024.size a ≤ S4096x1024.size a
  hwx3_0 : ∀ i : grid3.Coords, EltTy.bits .f32 = 32 ∨ (Rect.block (s := S4096x1024) S256x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S1024x1024.size a
  hwx3_1 : ∀ i : grid3.Coords, EltTy.bits .f32 = 32 ∨ (Rect.block (s := S1024x1024) S1024x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x1024.size a ≤ S4096x1024.size a
  hwx3_2 : ∀ i : grid3.Coords, EltTy.bits .f32 = 32 ∨ (Rect.block (s := S4096x1024) S256x1024.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x1024.size a ≤ S1536x1024.size a
  hwx4_0 : ∀ i : grid4.Coords, EltTy.bits .f32 = 32 ∨ (Rect.block (s := S1536x1024) S256x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .f32 = 32 ∨ (Rect.block (s := S1024x1024) S1024x1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S256x1024.size a ≤ S1536x1024.size a
  hwx4_2 : ∀ i : grid4.Coords, EltTy.bits .f32 = 32 ∨ (Rect.block (s := S1536x1024) S256x1024.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x1024.size a ≤ S768x1024.size a
  hwx5_0 : ∀ i : grid5.Coords, EltTy.bits .f32 = 32 ∨ (Rect.block (s := S768x1024) S256x1024.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1024x1024.size a ≤ S1024x1024.size a
  hwx5_1 : ∀ i : grid5.Coords, EltTy.bits .f32 = 32 ∨ (Rect.block (s := S1024x1024) S1024x1024.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S256x1024.size a ≤ S768x1024.size a
  hwx5_2 : ∀ i : grid5.Coords, EltTy.bits .f32 = 32 ∨ (Rect.block (s := S768x1024) S256x1024.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S256x1024.size a ≤ S3072x1024.size a
  hwx6_0 : ∀ i : grid6.Coords, EltTy.bits .f32 = 32 ∨ (Rect.block (s := S3072x1024) S256x1024.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1024x1024.size a ≤ S1024x1024.size a
  hwx6_1 : ∀ i : grid6.Coords, EltTy.bits .f32 = 32 ∨ (Rect.block (s := S1024x1024) S1024x1024.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S256x1024.size a ≤ S3072x1024.size a
  hwx6_2 : ∀ i : grid6.Coords, EltTy.bits .f32 = 32 ∨ (Rect.block (s := S3072x1024) S256x1024.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S256x1024.size a ≤ S2560x1024.size a
  hwx7_0 : ∀ i : grid7.Coords, EltTy.bits .f32 = 32 ∨ (Rect.block (s := S2560x1024) S256x1024.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1024x1024.size a ≤ S1024x1024.size a
  hwx7_1 : ∀ i : grid7.Coords, EltTy.bits .f32 = 32 ∨ (Rect.block (s := S1024x1024) S1024x1024.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S256x1024.size a ≤ S2560x1024.size a
  hwx7_2 : ∀ i : grid7.Coords, EltTy.bits .f32 = 32 ∨ (Rect.block (s := S2560x1024) S256x1024.size (cc7_transform_2 i) (hinb7_2 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg4) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S256x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg6) S256x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S1024x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3) S256x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg8) S256x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v4) S256x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_arg10) S256x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg11) S1024x1024.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v5) S256x1024.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_arg12) S256x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg13) S1024x1024.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v6) S256x1024.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_arg14) S256x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg15) S1024x1024.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v7) S256x1024.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S512x1024 : Shape := ⟨2, ![512, 1024]⟩
abbrev S1024x1024 : Shape := ⟨2, ![1024, 1024]⟩
abbrev S2048x1024 : Shape := ⟨2, ![2048, 1024]⟩
abbrev S4096x1024 : Shape := ⟨2, ![4096, 1024]⟩
abbrev S1536x1024 : Shape := ⟨2, ![1536, 1024]⟩
abbrev S768x1024 : Shape := ⟨2, ![768, 1024]⟩
abbrev S3072x1024 : Shape := ⟨2, ![3072, 1024]⟩
abbrev S2560x1024 : Shape := ⟨2, ![2560, 1024]⟩

abbrev nBuf : Space → Nat
  | .hbm => 24
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1536x1024, .f32⟩
  | .hbm, ⟨9, _⟩ => ⟨S1024x1024, .f32⟩
  | .hbm, ⟨10, _⟩ => ⟨S768x1024, .f32⟩
  | .hbm, ⟨11, _⟩ => ⟨S1024x1024, .f32⟩
  | .hbm, ⟨12, _⟩ => ⟨S3072x1024, .f32⟩
  | .hbm, ⟨13, _⟩ => ⟨S1024x1024, .f32⟩
  | .hbm, ⟨14, _⟩ => ⟨S2560x1024, .f32⟩
  | .hbm, ⟨15, _⟩ => ⟨S1024x1024, .f32⟩
  | .hbm, ⟨16, _⟩ => ⟨S512x1024, .f32⟩
  | .hbm, ⟨17, _⟩ => ⟨S1024x1024, .f32⟩
  | .hbm, ⟨18, _⟩ => ⟨S2048x1024, .f32⟩
  | .hbm, ⟨19, _⟩ => ⟨S4096x1024, .f32⟩
  | .hbm, ⟨20, _⟩ => ⟨S1536x1024, .f32⟩
  | .hbm, ⟨21, _⟩ => ⟨S768x1024, .f32⟩
  | .hbm, ⟨22, _⟩ => ⟨S3072x1024, .f32⟩
  | .hbm, ⟨23, _⟩ => ⟨S2560x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩

abbrev nD : Nat := 1
abbrev τ : Topo := Topo.v7x

variable {F : FTy → Type} [FloatOps F]

class Facts₀ : Prop where
  dot_S512x1024_S1024x1024_S512x1024_1_0_0_1_n_n_wf : DotDims.WF S512x1024 S1024x1024 S512x1024 [1] [0] [0] [1] [] []
  dot_S1024x1024_S1024x1024_S1024x1024_1_0_0_1_n_n_wf : DotDims.WF S1024x1024 S1024x1024 S1024x1024 [1] [0] [0] [1] [] []
  dot_S2048x1024_S1024x1024_S2048x1024_1_0_0_1_n_n_wf : DotDims.WF S2048x1024 S1024x1024 S2048x1024 [1] [0] [0] [1] [] []
  dot_S4096x1024_S1024x1024_S4096x1024_1_0_0_1_n_n_wf : DotDims.WF S4096x1024 S1024x1024 S4096x1024 [1] [0] [0] [1] [] []
  dot_S1536x1024_S1024x1024_S1536x1024_1_0_0_1_n_n_wf : DotDims.WF S1536x1024 S1024x1024 S1536x1024 [1] [0] [0] [1] [] []
  dot_S768x1024_S1024x1024_S768x1024_1_0_0_1_n_n_wf : DotDims.WF S768x1024 S1024x1024 S768x1024 [1] [0] [0] [1] [] []
  dot_S3072x1024_S1024x1024_S3072x1024_1_0_0_1_n_n_wf : DotDims.WF S3072x1024 S1024x1024 S3072x1024 [1] [0] [0] [1] [] []
  dot_S2560x1024_S1024x1024_S2560x1024_1_0_0_1_n_n_wf : DotDims.WF S2560x1024 S1024x1024 S2560x1024 [1] [0] [0] [1] [] []

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S1536x1024_S1024x1024_S1536x1024_1_0_0_1_n_n : DotDims S1536x1024 S1024x1024 S1536x1024 where
  lhsContracting := [1]
  rhsContracting := [0]
  lhsNonContracting := [0]
  rhsNonContracting := [1]
  lhsBatch := []
  rhsBatch := []
  wf := dot_S1536x1024_S1024x1024_S1536x1024_1_0_0_1_n_n_wf
def dot_S768x1024_S1024x1024_S768x1024_1_0_0_1_n_n : DotDims S768x1024 S1024x1024 S768x1024 where
  lhsContracting := [1]
  rhsContracting := [0]
  lhsNonContracting := [0]
  rhsNonContracting := [1]
  lhsBatch := []
  rhsBatch := []
  wf := dot_S768x1024_S1024x1024_S768x1024_1_0_0_1_n_n_wf
def dot_S3072x1024_S1024x1024_S3072x1024_1_0_0_1_n_n : DotDims S3072x1024 S1024x1024 S3072x1024 where
  lhsContracting := [1]
  rhsContracting := [0]
  lhsNonContracting := [0]
  rhsNonContracting := [1]
  lhsBatch := []
  rhsBatch := []
  wf := dot_S3072x1024_S1024x1024_S3072x1024_1_0_0_1_n_n_wf
def dot_S2560x1024_S1024x1024_S2560x1024_1_0_0_1_n_n : DotDims S2560x1024 S1024x1024 S2560x1024 where
  lhsContracting := [1]
  rhsContracting := [0]
  lhsNonContracting := [0]
  rhsNonContracting := [1]
  lhsBatch := []
  rhsBatch := []
  wf := dot_S2560x1024_S1024x1024_S2560x1024_1_0_0_1_n_n_wf

class Facts : Prop extends Facts₀ where

variable [Facts]
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.MatProd.lean ====
/-
  The product of two matrices of extended reals, and its two printed spellings.

  Entry `(p, q)` of the product of an `M × K` matrix `a` and a `K × N` matrix `b` is the sum over `k` of
  `a (p, k) · b (k, q)`.  On the extended reals this sum needs no side condition to be the SAME sum on both sides of
  the claim: the kernel's `tpu.matmul` of its two operands narrowed to bf16 (a change of format, the identity at the
  ideal values) into an all-zero accumulator, and the host's `dot_general` contracting axis 1 against axis 0, are
  both that sum, term for term and in the same order.  Nothing is rearranged, so no finiteness is used.
-/
import proofs.«147274_j32349693674007_1_alg».proof.Proof.LibRowOps

noncomputable section

open scoped BigOperators

namespace MatProd

open Idealize.ShloMosaic Idealize.ShloMosaic.ValueIdx

/-- The matrix product, entry by entry: row `i 0` of `a` against column `i 1` of `b`. -/
def matProd {M K N : ℕ} (a : (⟨2, ![M, K]⟩ : Shape).Idx → EReal) (b : (⟨2, ![K, N]⟩ : Shape).Idx → EReal) :
    (⟨2, ![M, N]⟩ : Shape).Idx → EReal :=
  fun i => ∑ k : Fin K, a (ix2 (i 0) k) * b (ix2 k (i 1))

theorem matProd_apply {M K N : ℕ} (a : (⟨2, ![M, K]⟩ : Shape).Idx → EReal) (b : (⟨2, ![K, N]⟩ : Shape).Idx → EReal)
    (p : Fin M) (q : Fin N) : matProd a b (ix2 p q) = ∑ k : Fin K, a (ix2 p k) * b (ix2 k q) := rfl

/-- The host's `dot_general` of two matrices, contracting the left's columns against the right's rows, IS the product. -/
theorem dotGeneral_eq_matProd {M K N : ℕ} (d : DotDims ⟨2, ![M, K]⟩ ⟨2, ![K, N]⟩ ⟨2, ![M, N]⟩) (hd : d = DotDims.plain M K N)
    (prec : Option ContractPrecision) (a : FVec Ideal ⟨2, ![M, K]⟩ .f32) (b : FVec Ideal ⟨2, ![K, N]⟩ .f32) :
    Host.dotGeneral d prec a b = matProd a b := by
  funext i
  obtain ⟨p, q, rfl⟩ : ∃ (p : Fin M) (q : Fin N), i = ix2 p q := ⟨i 0, i 1, eq_ix2 i⟩
  rw [RowOps.dotGeneral_plain_apply d hd, matProd_apply]

/-- A kernel's `tpu.matmul` of a row block and a matrix, both narrowed to bf16, into the all-zero accumulator, at
    `(p, q)`: the narrowing is the identity on extended reals, the zero accumulator adds nothing, and what is left is
    row `p` of the block against column `q` of the matrix. -/
theorem matmul_bf16_zero_apply {R K N : ℕ} (d : DotDims ⟨2, ![R, K]⟩ ⟨2, ![K, N]⟩ ⟨2, ![R, N]⟩) (hd : d = DotDims.plain R K N)
    (x : FVec Ideal ⟨2, ![R, K]⟩ .f32) (w : FVec Ideal ⟨2, ![K, N]⟩ .f32)
    (hx : FTy.bf16.bits < FTy.f32.bits) (hw : FTy.bf16.bits < FTy.f32.bits) (p : Fin R) (q : Fin N) :
    matmul d none (truncf .bf16 x hx) (truncf .bf16 w hw) (constant ⟨2, ![R, N]⟩ .f32 0x00000000#32) (ix2 p q)
      = ∑ k : Fin K, x (ix2 p k) * w (ix2 k q) := by
  rw [RowOps.matmul_plain_apply d hd]
  rfl

end MatProd

end
-- ==== Proof.Expert0.lean ====
/-
  Expert 0: the result array of launch 0 is the whole matrix product.

  Launch 0 walks the 512 rows of its left matrix in 2 blocks of 256 rows.  At grid point `t` the body reads rows
  `256·t … 256·t + 255` of the left matrix (all 1024 columns) and the whole right matrix, and writes rows
  `256·t … 256·t + 255` of the result: entry `(p, q)` of what it writes is the sum over `k` of
  `left (256·t + p, k) · right (k, q)`, which is entry `(256·t + p, q)` of the matrix product.  The 2 row blocks tile
  the result array, so after the last point the array IS the product of the two arrays the launch found.
  Everything is stated at the contents `V` of the buffers when the launch is entered.
-/
import proofs.«147274_j32349693674007_1_alg».proof.Proof.Gen.KernelIdeal.Frame
import proofs.«147274_j32349693674007_1_alg».proof.Proof.MatProd
import Idealize.ShloMosaic.Lib.Pipeline.Value

noncomputable section

open scoped BigOperators

namespace Cert.KernelIdeal.Expert0

open Cert.KernelIdeal Cert.KernelIdeal.Gen Idealize.ShloMosaic Idealize.ShloMosaic.TcCoe Idealize.SL.Sem
open Idealize.ShloMosaic.ValueIdx MatProd
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The left matrix and the right matrix as the launch finds them. -/
abbrev left (c : Dev nD) : S512x1024.Idx → EReal := V c main_arg0
abbrev right (c : Dev nD) : S1024x1024.Idx → EReal := V c main_arg1

/-- The block indices over the grid: the left and the result move down one row block per point, the right stays. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's value at `(p, q)`: row `p` of its row block against column `q` of its matrix. -/
theorem body_apply (x : FVec Ideal S256x1024 .f32) (w : FVec Ideal S1024x1024 .f32) (p : Fin 256) (q : Fin 1024) :
    k0_pay1 x w (ix2 p q) = ∑ k : Fin 1024, x (ix2 p k) * w (ix2 k q) := by
  unfold k0_pay1
  exact matmul_bf16_zero_apply _ rfl x w _ _ p q

/-- The left window's block at point `t` is rows `256·t …` of the left matrix. -/
theorem left_block (c : Dev nD) (t : Fin cfg0.N) (y : S256x1024.Idx) (i : S512x1024.Idx)
    (h0 : (i 0).val = t.val * 256 + (y 0).val) (h1 : (i 1).val = (y 1).val) :
    (iblk0 V c 0 t : FVec Ideal S256x1024 .f32) y = left V c i := by
  obtain ⟨e0, e1, -⟩ := block_index t
  unfold iblk0
  rw [View.read_apply]
  show V c main_arg0 _ = V c main_arg0 _
  refine congrArg (V c main_arg0) (funext fun a => Fin.ext ?_)
  match a with
  | ⟨0, _⟩ => show win0_0.index t (0 : Fin 2) * 256 + 1 * (y 0).val = (i 0).val; rw [e0, h0]; omega
  | ⟨1, _⟩ => show win0_0.index t (1 : Fin 2) * 1024 + 1 * (y 1).val = (i 1).val; rw [e1, h1]; omega

/-- The right window's block at every point is the whole right matrix. -/
theorem right_block (c : Dev nD) (t : Fin cfg0.N) (y : S1024x1024.Idx) :
    (iblk0 V c 1 t : FVec Ideal S1024x1024 .f32) y = right V c y := by
  obtain ⟨-, -, e2, e3, -⟩ := block_index t
  unfold iblk0
  rw [View.read_apply]
  show V c main_arg1 _ = V c main_arg1 _
  refine congrArg (V c main_arg1) (funext fun a => Fin.ext ?_)
  match a with
  | ⟨0, _⟩ => show win0_1.index t (0 : Fin 2) * 1024 + 1 * (y 0).val = (y 0).val; rw [e2]; omega
  | ⟨1, _⟩ => show win0_1.index t (1 : Fin 2) * 1024 + 1 * (y 1).val = (y 1).val; rw [e3]; omega

/-- What point `t` computes at `y` is the product's entry at row `256·t + y 0`, column `y 1`. -/
theorem body_at (c : Dev nD) (t : Fin cfg0.N) (y : S256x1024.Idx) (i : S512x1024.Idx)
    (h0 : (i 0).val = t.val * 256 + (y 0).val) (h1 : (i 1).val = (y 1).val) :
    k0_pay1 (iblk0 V c 0 t) (iblk0 V c 1 t) y = matProd (left V c) (right V c) i := by
  obtain ⟨p, q, rfl⟩ : ∃ (p : Fin 256) (q : Fin 1024), y = ix2 p q := ⟨y 0, y 1, eq_ix2 y⟩
  obtain ⟨r, s, rfl⟩ : ∃ (r : Fin 512) (s : Fin 1024), i = ix2 r s := ⟨i 0, i 1, eq_ix2 i⟩
  have hs : s = q := Fin.ext h1
  subst hs
  refine (body_apply (iblk0 V c 0 t) (iblk0 V c 1 t) p s).trans ?_
  rw [matProd_apply]
  refine Finset.sum_congr rfl fun k _ => ?_
  exact congrArg₂ (· * ·) (left_block V c t (ix2 p k) (ix2 r k) h0 rfl) (right_block V c t (ix2 k s))

/-- WHAT POINT `t` WRITES BACK is block `t` of the product. -/
theorem flushed_eq (c : Dev nD) (t : Fin cfg0.N) :
    (dat0 V c).flushed 2 t = ((cfg0.win 2).blk t).view.read (Elt Ideal) (matProd (left V c) (right V c)) := by
  show (cfg0.win 2).cut (grid0.coords t) ((dat0 V c).after 2 t) = _
  rw [after0_2]
  unfold out0_2
  rw [View.canon_unit_zero origin]
  simp only [View.ld_unit_zero (S := S256x1024) origin, View.ld_unit_zero (S := S1024x1024) origin]
  obtain ⟨-, -, -, -, e4, e5⟩ := block_index t
  funext j
  refine body_at V c t j (((cfg0.win 2).blk t).view.emb j) ?_ ?_
  · show win0_2.index t (0 : Fin 2) * 256 + 1 * (j 0).val = t.val * 256 + (j 0).val; rw [e4]; omega
  · show win0_2.index t (1 : Fin 2) * 1024 + 1 * (j 1).val = (j 1).val; rw [e5]; omega

/-- An index of the result is in point `t`'s block iff each coordinate is in the block's range on its axis. -/
theorem mem_block (t : Fin cfg0.N) (i : S512x1024.Idx) :
    i ∈ ((cfg0.win 2).blk t).view.set ↔ ∀ a : Fin 2, win0_2.index t a * S256x1024.size a ≤ (i a).val ∧ (i a).val < win0_2.index t a * S256x1024.size a + S256x1024.size a := by
  show i ∈ ((View.whole main_v0).slice (win0_2.rect t)).set ↔ _
  rw [View.set_slice_whole, Rect.mem_set_unit]
  exact Iff.rfl

/-- THE RESULT ARRAY after the launch is the product of the two arrays it found: row `r` lies in block `r / 256`. -/
theorem final (c : Dev nD) : (dat0 V c).arrAt 2 cfg0.N = matProd (left V c) (right V c) :=
  (dat0 V c).arrAt_eq_of_cover 2 (matProd (left V c) (right V c)) (fun t _ => flushed_eq V c t) fun i => by
    have hi0 : (i 0).val < 512 := (i 0).isLt
    have hi1 : (i 1).val < 1024 := (i 1).isLt
    have ht : (i 0).val / 256 < cfg0.N := by rw [show cfg0.N = 2 from N_0]; omega
    obtain ⟨-, -, -, -, e4, e5⟩ := block_index ⟨(i 0).val / 256, ht⟩
    refine ⟨⟨(i 0).val / 256, ht⟩, flush0_2 _, ?_⟩
    rw [mem_block]
    intro a
    match a with
    | ⟨0, _⟩ =>
      show win0_2.index ⟨(i 0).val / 256, ht⟩ (0 : Fin 2) * 256 ≤ (i 0).val ∧ (i 0).val < win0_2.index ⟨(i 0).val / 256, ht⟩ (0 : Fin 2) * 256 + 256
      rw [e4]; show (i 0).val / 256 * 256 ≤ (i 0).val ∧ (i 0).val < (i 0).val / 256 * 256 + 256; omega
    | ⟨1, _⟩ =>
      show win0_2.index ⟨(i 0).val / 256, ht⟩ (1 : Fin 2) * 1024 ≤ (i 1).val ∧ (i 1).val < win0_2.index ⟨(i 0).val / 256, ht⟩ (1 : Fin 2) * 1024 + 1024
      rw [e5]; omega

end Cert.KernelIdeal.Expert0

end
-- ==== Proof.Expert1.lean ====
/-
  Expert 1: the result array of launch 1 is the whole matrix product.

  Launch 1 walks the 1024 rows of its left matrix in 4 blocks of 256 rows.  At grid point `t` the body reads rows
  `256·t … 256·t + 255` of the left matrix (all 1024 columns) and the whole right matrix, and writes rows
  `256·t … 256·t + 255` of the result: entry `(p, q)` of what it writes is the sum over `k` of
  `left (256·t + p, k) · right (k, q)`, which is entry `(256·t + p, q)` of the matrix product.  The 4 row blocks tile
  the result array, so after the last point the array IS the product of the two arrays the launch found.
  Everything is stated at the contents `V` of the buffers when the launch is entered.
-/
import proofs.«147274_j32349693674007_1_alg».proof.Proof.Gen.KernelIdeal.Frame
import proofs.«147274_j32349693674007_1_alg».proof.Proof.MatProd
import Idealize.ShloMosaic.Lib.Pipeline.Value

noncomputable section

open scoped BigOperators

namespace Cert.KernelIdeal.Expert1

open Cert.KernelIdeal Cert.KernelIdeal.Gen Idealize.ShloMosaic Idealize.ShloMosaic.TcCoe Idealize.SL.Sem
open Idealize.ShloMosaic.ValueIdx MatProd
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The left matrix and the right matrix as the launch finds them. -/
abbrev left (c : Dev nD) : S1024x1024.Idx → EReal := V c main_arg2
abbrev right (c : Dev nD) : S1024x1024.Idx → EReal := V c main_arg3

/-- The block indices over the grid: the left and the result move down one row block per point, the right stays. -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's value at `(p, q)`: row `p` of its row block against column `q` of its matrix. -/
theorem body_apply (x : FVec Ideal S256x1024 .f32) (w : FVec Ideal S1024x1024 .f32) (p : Fin 256) (q : Fin 1024) :
    k1_pay1 x w (ix2 p q) = ∑ k : Fin 1024, x (ix2 p k) * w (ix2 k q) := by
  unfold k1_pay1
  exact matmul_bf16_zero_apply _ rfl x w _ _ p q

/-- The left window's block at point `t` is rows `256·t …` of the left matrix. -/
theorem left_block (c : Dev nD) (t : Fin cfg1.N) (y : S256x1024.Idx) (i : S1024x1024.Idx)
    (h0 : (i 0).val = t.val * 256 + (y 0).val) (h1 : (i 1).val = (y 1).val) :
    (iblk1 V c 0 t : FVec Ideal S256x1024 .f32) y = left V c i := by
  obtain ⟨e0, e1, -⟩ := block_index t
  unfold iblk1
  rw [View.read_apply]
  show V c main_arg2 _ = V c main_arg2 _
  refine congrArg (V c main_arg2) (funext fun a => Fin.ext ?_)
  match a with
  | ⟨0, _⟩ => show win1_0.index t (0 : Fin 2) * 256 + 1 * (y 0).val = (i 0).val; rw [e0, h0]; omega
  | ⟨1, _⟩ => show win1_0.index t (1 : Fin 2) * 1024 + 1 * (y 1).val = (i 1).val; rw [e1, h1]; omega

/-- The right window's block at every point is the whole right matrix. -/
theorem right_block (c : Dev nD) (t : Fin cfg1.N) (y : S1024x1024.Idx) :
    (iblk1 V c 1 t : FVec Ideal S1024x1024 .f32) y = right V c y := by
  obtain ⟨-, -, e2, e3, -⟩ := block_index t
  unfold iblk1
  rw [View.read_apply]
  show V c main_arg3 _ = V c main_arg3 _
  refine congrArg (V c main_arg3) (funext fun a => Fin.ext ?_)
  match a with
  | ⟨0, _⟩ => show win1_1.index t (0 : Fin 2) * 1024 + 1 * (y 0).val = (y 0).val; rw [e2]; omega
  | ⟨1, _⟩ => show win1_1.index t (1 : Fin 2) * 1024 + 1 * (y 1).val = (y 1).val; rw [e3]; omega

/-- What point `t` computes at `y` is the product's entry at row `256·t + y 0`, column `y 1`. -/
theorem body_at (c : Dev nD) (t : Fin cfg1.N) (y : S256x1024.Idx) (i : S1024x1024.Idx)
    (h0 : (i 0).val = t.val * 256 + (y 0).val) (h1 : (i 1).val = (y 1).val) :
    k1_pay1 (iblk1 V c 0 t) (iblk1 V c 1 t) y = matProd (left V c) (right V c) i := by
  obtain ⟨p, q, rfl⟩ : ∃ (p : Fin 256) (q : Fin 1024), y = ix2 p q := ⟨y 0, y 1, eq_ix2 y⟩
  obtain ⟨r, s, rfl⟩ : ∃ (r : Fin 1024) (s : Fin 1024), i = ix2 r s := ⟨i 0, i 1, eq_ix2 i⟩
  have hs : s = q := Fin.ext h1
  subst hs
  refine (body_apply (iblk1 V c 0 t) (iblk1 V c 1 t) p s).trans ?_
  rw [matProd_apply]
  refine Finset.sum_congr rfl fun k _ => ?_
  exact congrArg₂ (· * ·) (left_block V c t (ix2 p k) (ix2 r k) h0 rfl) (right_block V c t (ix2 k s))

/-- WHAT POINT `t` WRITES BACK is block `t` of the product. -/
theorem flushed_eq (c : Dev nD) (t : Fin cfg1.N) :
    (dat1 V c).flushed 2 t = ((cfg1.win 2).blk t).view.read (Elt Ideal) (matProd (left V c) (right V c)) := by
  show (cfg1.win 2).cut (grid1.coords t) ((dat1 V c).after 2 t) = _
  rw [after1_2]
  unfold out1_2
  rw [View.canon_unit_zero origin]
  simp only [View.ld_unit_zero (S := S256x1024) origin, View.ld_unit_zero (S := S1024x1024) origin]
  obtain ⟨-, -, -, -, e4, e5⟩ := block_index t
  funext j
  refine body_at V c t j (((cfg1.win 2).blk t).view.emb j) ?_ ?_
  · show win1_2.index t (0 : Fin 2) * 256 + 1 * (j 0).val = t.val * 256 + (j 0).val; rw [e4]; omega
  · show win1_2.index t (1 : Fin 2) * 1024 + 1 * (j 1).val = (j 1).val; rw [e5]; omega

/-- An index of the result is in point `t`'s block iff each coordinate is in the block's range on its axis. -/
theorem mem_block (t : Fin cfg1.N) (i : S1024x1024.Idx) :
    i ∈ ((cfg1.win 2).blk t).view.set ↔ ∀ a : Fin 2, win1_2.index t a * S256x1024.size a ≤ (i a).val ∧ (i a).val < win1_2.index t a * S256x1024.size a + S256x1024.size a := by
  show i ∈ ((View.whole main_v1).slice (win1_2.rect t)).set ↔ _
  rw [View.set_slice_whole, Rect.mem_set_unit]
  exact Iff.rfl

/-- THE RESULT ARRAY after the launch is the product of the two arrays it found: row `r` lies in block `r / 256`. -/
theorem final (c : Dev nD) : (dat1 V c).arrAt 2 cfg1.N = matProd (left V c) (right V c) :=
  (dat1 V c).arrAt_eq_of_cover 2 (matProd (left V c) (right V c)) (fun t _ => flushed_eq V c t) fun i => by
    have hi0 : (i 0).val < 1024 := (i 0).isLt
    have hi1 : (i 1).val < 1024 := (i 1).isLt
    have ht : (i 0).val / 256 < cfg1.N := by rw [show cfg1.N = 4 from N_1]; omega
    obtain ⟨-, -, -, -, e4, e5⟩ := block_index ⟨(i 0).val / 256, ht⟩
    refine ⟨⟨(i 0).val / 256, ht⟩, flush1_2 _, ?_⟩
    rw [mem_block]
    intro a
    match a with
    | ⟨0, _⟩ =>
      show win1_2.index ⟨(i 0).val / 256, ht⟩ (0 : Fin 2) * 256 ≤ (i 0).val ∧ (i 0).val < win1_2.index ⟨(i 0).val / 256, ht⟩ (0 : Fin 2) * 256 + 256
      rw [e4]; show (i 0).val / 256 * 256 ≤ (i 0).val ∧ (i 0).val < (i 0).val / 256 * 256 + 256; omega
    | ⟨1, _⟩ =>
      show win1_2.index ⟨(i 0).val / 256, ht⟩ (1 : Fin 2) * 1024 ≤ (i 1).val ∧ (i 1).val < win1_2.index ⟨(i 0).val / 256, ht⟩ (1 : Fin 2) * 1024 + 1024
      rw [e5]; omega

end Cert.KernelIdeal.Expert1

end
-- ==== Proof.Expert2.lean ====
/-
  Expert 2: the result array of launch 2 is the whole matrix product.

  Launch 2 walks the 2048 rows of its left matrix in 8 blocks of 256 rows.  At grid point `t` the body reads rows
  `256·t … 256·t + 255` of the left matrix (all 1024 columns) and the whole right matrix, and writes rows
  `256·t … 256·t + 255` of the result: entry `(p, q)` of what it writes is the sum over `k` of
  `left (256·t + p, k) · right (k, q)`, which is entry `(256·t + p, q)` of the matrix product.  The 8 row blocks tile
  the result array, so after the last point the array IS the product of the two arrays the launch found.
  Everything is stated at the contents `V` of the buffers when the launch is entered.
-/
import proofs.«147274_j32349693674007_1_alg».proof.Proof.Gen.KernelIdeal.Frame
import proofs.«147274_j32349693674007_1_alg».proof.Proof.MatProd
import Idealize.ShloMosaic.Lib.Pipeline.Value

noncomputable section

open scoped BigOperators

namespace Cert.KernelIdeal.Expert2

open Cert.KernelIdeal Cert.KernelIdeal.Gen Idealize.ShloMosaic Idealize.ShloMosaic.TcCoe Idealize.SL.Sem
open Idealize.ShloMosaic.ValueIdx MatProd
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The left matrix and the right matrix as the launch finds them. -/
abbrev left (c : Dev nD) : S2048x1024.Idx → EReal := V c main_arg4
abbrev right (c : Dev nD) : S1024x1024.Idx → EReal := V c main_arg5

/-- The block indices over the grid: the left and the result move down one row block per point, the right stays. -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's value at `(p, q)`: row `p` of its row block against column `q` of its matrix. -/
theorem body_apply (x : FVec Ideal S256x1024 .f32) (w : FVec Ideal S1024x1024 .f32) (p : Fin 256) (q : Fin 1024) :
    k2_pay1 x w (ix2 p q) = ∑ k : Fin 1024, x (ix2 p k) * w (ix2 k q) := by
  unfold k2_pay1
  exact matmul_bf16_zero_apply _ rfl x w _ _ p q

/-- The left window's block at point `t` is rows `256·t …` of the left matrix. -/
theorem left_block (c : Dev nD) (t : Fin cfg2.N) (y : S256x1024.Idx) (i : S2048x1024.Idx)
    (h0 : (i 0).val = t.val * 256 + (y 0).val) (h1 : (i 1).val = (y 1).val) :
    (iblk2 V c 0 t : FVec Ideal S256x1024 .f32) y = left V c i := by
  obtain ⟨e0, e1, -⟩ := block_index t
  unfold iblk2
  rw [View.read_apply]
  show V c main_arg4 _ = V c main_arg4 _
  refine congrArg (V c main_arg4) (funext fun a => Fin.ext ?_)
  match a with
  | ⟨0, _⟩ => show win2_0.index t (0 : Fin 2) * 256 + 1 * (y 0).val = (i 0).val; rw [e0, h0]; omega
  | ⟨1, _⟩ => show win2_0.index t (1 : Fin 2) * 1024 + 1 * (y 1).val = (i 1).val; rw [e1, h1]; omega

/-- The right window's block at every point is the whole right matrix. -/
theorem right_block (c : Dev nD) (t : Fin cfg2.N) (y : S1024x1024.Idx) :
    (iblk2 V c 1 t : FVec Ideal S1024x1024 .f32) y = right V c y := by
  obtain ⟨-, -, e2, e3, -⟩ := block_index t
  unfold iblk2
  rw [View.read_apply]
  show V c main_arg5 _ = V c main_arg5 _
  refine congrArg (V c main_arg5) (funext fun a => Fin.ext ?_)
  match a with
  | ⟨0, _⟩ => show win2_1.index t (0 : Fin 2) * 1024 + 1 * (y 0).val = (y 0).val; rw [e2]; omega
  | ⟨1, _⟩ => show win2_1.index t (1 : Fin 2) * 1024 + 1 * (y 1).val = (y 1).val; rw [e3]; omega

/-- What point `t` computes at `y` is the product's entry at row `256·t + y 0`, column `y 1`. -/
theorem body_at (c : Dev nD) (t : Fin cfg2.N) (y : S256x1024.Idx) (i : S2048x1024.Idx)
    (h0 : (i 0).val = t.val * 256 + (y 0).val) (h1 : (i 1).val = (y 1).val) :
    k2_pay1 (iblk2 V c 0 t) (iblk2 V c 1 t) y = matProd (left V c) (right V c) i := by
  obtain ⟨p, q, rfl⟩ : ∃ (p : Fin 256) (q : Fin 1024), y = ix2 p q := ⟨y 0, y 1, eq_ix2 y⟩
  obtain ⟨r, s, rfl⟩ : ∃ (r : Fin 2048) (s : Fin 1024), i = ix2 r s := ⟨i 0, i 1, eq_ix2 i⟩
  have hs : s = q := Fin.ext h1
  subst hs
  refine (body_apply (iblk2 V c 0 t) (iblk2 V c 1 t) p s).trans ?_
  rw [matProd_apply]
  refine Finset.sum_congr rfl fun k _ => ?_
  exact congrArg₂ (· * ·) (left_block V c t (ix2 p k) (ix2 r k) h0 rfl) (right_block V c t (ix2 k s))

/-- WHAT POINT `t` WRITES BACK is block `t` of the product. -/
theorem flushed_eq (c : Dev nD) (t : Fin cfg2.N) :
    (dat2 V c).flushed 2 t = ((cfg2.win 2).blk t).view.read (Elt Ideal) (matProd (left V c) (right V c)) := by
  show (cfg2.win 2).cut (grid2.coords t) ((dat2 V c).after 2 t) = _
  rw [after2_2]
  unfold out2_2
  rw [View.canon_unit_zero origin]
  simp only [View.ld_unit_zero (S := S256x1024) origin, View.ld_unit_zero (S := S1024x1024) origin]
  obtain ⟨-, -, -, -, e4, e5⟩ := block_index t
  funext j
  refine body_at V c t j (((cfg2.win 2).blk t).view.emb j) ?_ ?_
  · show win2_2.index t (0 : Fin 2) * 256 + 1 * (j 0).val = t.val * 256 + (j 0).val; rw [e4]; omega
  · show win2_2.index t (1 : Fin 2) * 1024 + 1 * (j 1).val = (j 1).val; rw [e5]; omega

/-- An index of the result is in point `t`'s block iff each coordinate is in the block's range on its axis. -/
theorem mem_block (t : Fin cfg2.N) (i : S2048x1024.Idx) :
    i ∈ ((cfg2.win 2).blk t).view.set ↔ ∀ a : Fin 2, win2_2.index t a * S256x1024.size a ≤ (i a).val ∧ (i a).val < win2_2.index t a * S256x1024.size a + S256x1024.size a := by
  show i ∈ ((View.whole main_v2).slice (win2_2.rect t)).set ↔ _
  rw [View.set_slice_whole, Rect.mem_set_unit]
  exact Iff.rfl

/-- THE RESULT ARRAY after the launch is the product of the two arrays it found: row `r` lies in block `r / 256`. -/
theorem final (c : Dev nD) : (dat2 V c).arrAt 2 cfg2.N = matProd (left V c) (right V c) :=
  (dat2 V c).arrAt_eq_of_cover 2 (matProd (left V c) (right V c)) (fun t _ => flushed_eq V c t) fun i => by
    have hi0 : (i 0).val < 2048 := (i 0).isLt
    have hi1 : (i 1).val < 1024 := (i 1).isLt
    have ht : (i 0).val / 256 < cfg2.N := by rw [show cfg2.N = 8 from N_2]; omega
    obtain ⟨-, -, -, -, e4, e5⟩ := block_index ⟨(i 0).val / 256, ht⟩
    refine ⟨⟨(i 0).val / 256, ht⟩, flush2_2 _, ?_⟩
    rw [mem_block]
    intro a
    match a with
    | ⟨0, _⟩ =>
      show win2_2.index ⟨(i 0).val / 256, ht⟩ (0 : Fin 2) * 256 ≤ (i 0).val ∧ (i 0).val < win2_2.index ⟨(i 0).val / 256, ht⟩ (0 : Fin 2) * 256 + 256
      rw [e4]; show (i 0).val / 256 * 256 ≤ (i 0).val ∧ (i 0).val < (i 0).val / 256 * 256 + 256; omega
    | ⟨1, _⟩ =>
      show win2_2.index ⟨(i 0).val / 256, ht⟩ (1 : Fin 2) * 1024 ≤ (i 1).val ∧ (i 1).val < win2_2.index ⟨(i 0).val / 256, ht⟩ (1 : Fin 2) * 1024 + 1024
      rw [e5]; omega

end Cert.KernelIdeal.Expert2

end
-- ==== Proof.Expert3.lean ====
/-
  Expert 3: the result array of launch 3 is the whole matrix product.

  Launch 3 walks the 4096 rows of its left matrix in 16 blocks of 256 rows.  At grid point `t` the body reads rows
  `256·t … 256·t + 255` of the left matrix (all 1024 columns) and the whole right matrix, and writes rows
  `256·t … 256·t + 255` of the result: entry `(p, q)` of what it writes is the sum over `k` of
  `left (256·t + p, k) · right (k, q)`, which is entry `(256·t + p, q)` of the matrix product.  The 16 row blocks tile
  the result array, so after the last point the array IS the product of the two arrays the launch found.
  Everything is stated at the contents `V` of the buffers when the launch is entered.
-/
import proofs.«147274_j32349693674007_1_alg».proof.Proof.Gen.KernelIdeal.Frame
import proofs.«147274_j32349693674007_1_alg».proof.Proof.MatProd
import Idealize.ShloMosaic.Lib.Pipeline.Value

noncomputable section

open scoped BigOperators

namespace Cert.KernelIdeal.Expert3

open Cert.KernelIdeal Cert.KernelIdeal.Gen Idealize.ShloMosaic Idealize.ShloMosaic.TcCoe Idealize.SL.Sem
open Idealize.ShloMosaic.ValueIdx MatProd
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The left matrix and the right matrix as the launch finds them. -/
abbrev left (c : Dev nD) : S4096x1024.Idx → EReal := V c main_arg6
abbrev right (c : Dev nD) : S1024x1024.Idx → EReal := V c main_arg7

/-- The block indices over the grid: the left and the result move down one row block per point, the right stays. -/
theorem block_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body's value at `(p, q)`: row `p` of its row block against column `q` of its matrix. -/
theorem body_apply (x : FVec Ideal S256x1024 .f32) (w : FVec Ideal S1024x1024 .f32) (p : Fin 256) (q : Fin 1024) :
    k3_pay1 x w (ix2 p q) = ∑ k : Fin 1024, x (ix2 p k) * w (ix2 k q) := by
  unfold k3_pay1
  exact matmul_bf16_zero_apply _ rfl x w _ _ p q

/-- The left window's block at point `t` is rows `256·t …` of the left matrix. -/
theorem left_block (c : Dev nD) (t : Fin cfg3.N) (y : S256x1024.Idx) (i : S4096x1024.Idx)
    (h0 : (i 0).val = t.val * 256 + (y 0).val) (h1 : (i 1).val = (y 1).val) :
    (iblk3 V c 0 t : FVec Ideal S256x1024 .f32) y = left V c i := by
  obtain ⟨e0, e1, -⟩ := block_index t
  unfold iblk3
  rw [View.read_apply]
  show V c main_arg6 _ = V c main_arg6 _
  refine congrArg (V c main_arg6) (funext fun a => Fin.ext ?_)
  match a with
  | ⟨0, _⟩ => show win3_0.index t (0 : Fin 2) * 256 + 1 * (y 0).val = (i 0).val; rw [e0, h0]; omega
  | ⟨1, _⟩ => show win3_0.index t (1 : Fin 2) * 1024 + 1 * (y 1).val = (i 1).val; rw [e1, h1]; omega

/-- The right window's block at every point is the whole right matrix. -/
theorem right_block (c : Dev nD) (t : Fin cfg3.N) (y : S1024x1024.Idx) :
    (iblk3 V c 1 t : FVec Ideal S1024x1024 .f32) y = right V c y := by
  obtain ⟨-, -, e2, e3, -⟩ := block_index t
  unfold iblk3
  rw [View.read_apply]
  show V c main_arg7 _ = V c main_arg7 _
  refine congrArg (V c main_arg7) (funext fun a => Fin.ext ?_)
  match a with
  | ⟨0, _⟩ => show win3_1.index t (0 : Fin 2) * 1024 + 1 * (y 0).val = (y 0).val; rw [e2]; omega
  | ⟨1, _⟩ => show win3_1.index t (1 : Fin 2) * 1024 + 1 * (y 1).val = (y 1).val; rw [e3]; omega

/-- What point `t` computes at `y` is the product's entry at row `256·t + y 0`, column `y 1`. -/
theorem body_at (c : Dev nD) (t : Fin cfg3.N) (y : S256x1024.Idx) (i : S4096x1024.Idx)
    (h0 : (i 0).val = t.val * 256 + (y 0).val) (h1 : (i 1).val = (y 1).val) :
    k3_pay1 (iblk3 V c 0 t) (iblk3 V c 1 t) y = matProd (left V c) (right V c) i := by
  obtain ⟨p, q, rfl⟩ : ∃ (p : Fin 256) (q : Fin 1024), y = ix2 p q := ⟨y 0, y 1, eq_ix2 y⟩
  obtain ⟨r, s, rfl⟩ : ∃ (r : Fin 4096) (s : Fin 1024), i = ix2 r s := ⟨i 0, i 1, eq_ix2 i⟩
  have hs : s = q := Fin.ext h1
  subst hs
  refine (body_apply (iblk3 V c 0 t) (iblk3 V c 1 t) p s).trans ?_
  rw [matProd_apply]
  refine Finset.sum_congr rfl fun k _ => ?_
  exact congrArg₂ (· * ·) (left_block V c t (ix2 p k) (ix2 r k) h0 rfl) (right_block V c t (ix2 k s))

/-- WHAT POINT `t` WRITES BACK is block `t` of the product. -/
theorem flushed_eq (c : Dev nD) (t : Fin cfg3.N) :
    (dat3 V c).flushed 2 t = ((cfg3.win 2).blk t).view.read (Elt Ideal) (matProd (left V c) (right V c)) := by
  show (cfg3.win 2).cut (grid3.coords t) ((dat3 V c).after 2 t) = _
  rw [after3_2]
  unfold out3_2
  rw [View.canon_unit_zero origin]
  simp only [View.ld_unit_zero (S := S256x1024) origin, View.ld_unit_zero (S := S1024x1024) origin]
  obtain ⟨-, -, -, -, e4, e5⟩ := block_index t
  funext j
  refine body_at V c t j (((cfg3.win 2).blk t).view.emb j) ?_ ?_
  · show win3_2.index t (0 : Fin 2) * 256 + 1 * (j 0).val = t.val * 256 + (j 0).val; rw [e4]; omega
  · show win3_2.index t (1 : Fin 2) * 1024 + 1 * (j 1).val = (j 1).val; rw [e5]; omega

/-- An index of the result is in point `t`'s block iff each coordinate is in the block's range on its axis. -/
theorem mem_block (t : Fin cfg3.N) (i : S4096x1024.Idx) :
    i ∈ ((cfg3.win 2).blk t).view.set ↔ ∀ a : Fin 2, win3_2.index t a * S256x1024.size a ≤ (i a).val ∧ (i a).val < win3_2.index t a * S256x1024.size a + S256x1024.size a := by
  show i ∈ ((View.whole main_v3).slice (win3_2.rect t)).set ↔ _
  rw [View.set_slice_whole, Rect.mem_set_unit]
  exact Iff.rfl

/-- THE RESULT ARRAY after the launch is the product of the two arrays it found: row `r` lies in block `r / 256`. -/
theorem final (c : Dev nD) : (dat3 V c).arrAt 2 cfg3.N = matProd (left V c) (right V c) :=
  (dat3 V c).arrAt_eq_of_cover 2 (matProd (left V c) (right V c)) (fun t _ => flushed_eq V c t) fun i => by
    have hi0 : (i 0).val < 4096 := (i 0).isLt
    have hi1 : (i 1).val < 1024 := (i 1).isLt
    have ht : (i 0).val / 256 < cfg3.N := by rw [show cfg3.N = 16 from N_3]; omega
    obtain ⟨-, -, -, -, e4, e5⟩ := block_index ⟨(i 0).val / 256, ht⟩
    refine ⟨⟨(i 0).val / 256, ht⟩, flush3_2 _, ?_⟩
    rw [mem_block]
    intro a
    match a with
    | ⟨0, _⟩ =>
      show win3_2.index ⟨(i 0).val / 256, ht⟩ (0 : Fin 2) * 256 ≤ (i 0).val ∧ (i 0).val < win3_2.index ⟨(i 0).val / 256, ht⟩ (0 : Fin 2) * 256 + 256
      rw [e4]; show (i 0).val / 256 * 256 ≤ (i 0).val ∧ (i 0).val < (i 0).val / 256 * 256 + 256; omega
    | ⟨1, _⟩ =>
      show win3_2.index ⟨(i 0).val / 256, ht⟩ (1 : Fin 2) * 1024 ≤ (i 1).val ∧ (i 1).val < win3_2.index ⟨(i 0).val / 256, ht⟩ (1 : Fin 2) * 1024 + 1024
      rw [e5]; omega

end Cert.KernelIdeal.Expert3

end
-- ==== Proof.Expert4.lean ====
/-
  Expert 4: the result array of launch 4 is the whole matrix product.

  Launch 4 walks the 1536 rows of its left matrix in 6 blocks of 256 rows.  At grid point `t` the body reads rows
  `256·t … 256·t + 255` of the left matrix (all 1024 columns) and the whole right matrix, and writes rows
  `256·t … 256·t + 255` of the result: entry `(p, q)` of what it writes is the sum over `k` of
  `left (256·t + p, k) · right (k, q)`, which is entry `(256·t + p, q)` of the matrix product.  The 6 row blocks tile
  the result array, so after the last point the array IS the product of the two arrays the launch found.
  Everything is stated at the contents `V` of the buffers when the launch is entered.
-/
import proofs.«147274_j32349693674007_1_alg».proof.Proof.Gen.KernelIdeal.Frame
import proofs.«147274_j32349693674007_1_alg».proof.Proof.MatProd
import Idealize.ShloMosaic.Lib.Pipeline.Value

noncomputable section

open scoped BigOperators

namespace Cert.KernelIdeal.Expert4

open Cert.KernelIdeal Cert.KernelIdeal.Gen Idealize.ShloMosaic Idealize.ShloMosaic.TcCoe Idealize.SL.Sem
open Idealize.ShloMosaic.ValueIdx MatProd
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The left matrix and the right matrix as the launch finds them. -/
abbrev left (c : Dev nD) : S1536x1024.Idx → EReal := V c main_arg8
abbrev right (c : Dev nD) : S1024x1024.Idx → EReal := V c main_arg9

/-- The block indices over the grid: the left and the result move down one row block per point, the right stays. -/
theorem block_index : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The body's value at `(p, q)`: row `p` of its row block against column `q` of its matrix. -/
theorem body_apply (x : FVec Ideal S256x1024 .f32) (w : FVec Ideal S1024x1024 .f32) (p : Fin 256) (q : Fin 1024) :
    k4_pay1 x w (ix2 p q) = ∑ k : Fin 1024, x (ix2 p k) * w (ix2 k q) := by
  unfold k4_pay1
  exact matmul_bf16_zero_apply _ rfl x w _ _ p q

/-- The left window's block at point `t` is rows `256·t …` of the left matrix. -/
theorem left_block (c : Dev nD) (t : Fin cfg4.N) (y : S256x1024.Idx) (i : S1536x1024.Idx)
    (h0 : (i 0).val = t.val * 256 + (y 0).val) (h1 : (i 1).val = (y 1).val) :
    (iblk4 V c 0 t : FVec Ideal S256x1024 .f32) y = left V c i := by
  obtain ⟨e0, e1, -⟩ := block_index t
  unfold iblk4
  rw [View.read_apply]
  show V c main_arg8 _ = V c main_arg8 _
  refine congrArg (V c main_arg8) (funext fun a => Fin.ext ?_)
  match a with
  | ⟨0, _⟩ => show win4_0.index t (0 : Fin 2) * 256 + 1 * (y 0).val = (i 0).val; rw [e0, h0]; omega
  | ⟨1, _⟩ => show win4_0.index t (1 : Fin 2) * 1024 + 1 * (y 1).val = (i 1).val; rw [e1, h1]; omega

/-- The right window's block at every point is the whole right matrix. -/
theorem right_block (c : Dev nD) (t : Fin cfg4.N) (y : S1024x1024.Idx) :
    (iblk4 V c 1 t : FVec Ideal S1024x1024 .f32) y = right V c y := by
  obtain ⟨-, -, e2, e3, -⟩ := block_index t
  unfold iblk4
  rw [View.read_apply]
  show V c main_arg9 _ = V c main_arg9 _
  refine congrArg (V c main_arg9) (funext fun a => Fin.ext ?_)
  match a with
  | ⟨0, _⟩ => show win4_1.index t (0 : Fin 2) * 1024 + 1 * (y 0).val = (y 0).val; rw [e2]; omega
  | ⟨1, _⟩ => show win4_1.index t (1 : Fin 2) * 1024 + 1 * (y 1).val = (y 1).val; rw [e3]; omega

/-- What point `t` computes at `y` is the product's entry at row `256·t + y 0`, column `y 1`. -/
theorem body_at (c : Dev nD) (t : Fin cfg4.N) (y : S256x1024.Idx) (i : S1536x1024.Idx)
    (h0 : (i 0).val = t.val * 256 + (y 0).val) (h1 : (i 1).val = (y 1).val) :
    k4_pay1 (iblk4 V c 0 t) (iblk4 V c 1 t) y = matProd (left V c) (right V c) i := by
  obtain ⟨p, q, rfl⟩ : ∃ (p : Fin 256) (q : Fin 1024), y = ix2 p q := ⟨y 0, y 1, eq_ix2 y⟩
  obtain ⟨r, s, rfl⟩ : ∃ (r : Fin 1536) (s : Fin 1024), i = ix2 r s := ⟨i 0, i 1, eq_ix2 i⟩
  have hs : s = q := Fin.ext h1
  subst hs
  refine (body_apply (iblk4 V c 0 t) (iblk4 V c 1 t) p s).trans ?_
  rw [matProd_apply]
  refine Finset.sum_congr rfl fun k _ => ?_
  exact congrArg₂ (· * ·) (left_block V c t (ix2 p k) (ix2 r k) h0 rfl) (right_block V c t (ix2 k s))

/-- WHAT POINT `t` WRITES BACK is block `t` of the product. -/
theorem flushed_eq (c : Dev nD) (t : Fin cfg4.N) :
    (dat4 V c).flushed 2 t = ((cfg4.win 2).blk t).view.read (Elt Ideal) (matProd (left V c) (right V c)) := by
  show (cfg4.win 2).cut (grid4.coords t) ((dat4 V c).after 2 t) = _
  rw [after4_2]
  unfold out4_2
  rw [View.canon_unit_zero origin]
  simp only [View.ld_unit_zero (S := S256x1024) origin, View.ld_unit_zero (S := S1024x1024) origin]
  obtain ⟨-, -, -, -, e4, e5⟩ := block_index t
  funext j
  refine body_at V c t j (((cfg4.win 2).blk t).view.emb j) ?_ ?_
  · show win4_2.index t (0 : Fin 2) * 256 + 1 * (j 0).val = t.val * 256 + (j 0).val; rw [e4]; omega
  · show win4_2.index t (1 : Fin 2) * 1024 + 1 * (j 1).val = (j 1).val; rw [e5]; omega

/-- An index of the result is in point `t`'s block iff each coordinate is in the block's range on its axis. -/
theorem mem_block (t : Fin cfg4.N) (i : S1536x1024.Idx) :
    i ∈ ((cfg4.win 2).blk t).view.set ↔ ∀ a : Fin 2, win4_2.index t a * S256x1024.size a ≤ (i a).val ∧ (i a).val < win4_2.index t a * S256x1024.size a + S256x1024.size a := by
  show i ∈ ((View.whole main_v4).slice (win4_2.rect t)).set ↔ _
  rw [View.set_slice_whole, Rect.mem_set_unit]
  exact Iff.rfl

/-- THE RESULT ARRAY after the launch is the product of the two arrays it found: row `r` lies in block `r / 256`. -/
theorem final (c : Dev nD) : (dat4 V c).arrAt 2 cfg4.N = matProd (left V c) (right V c) :=
  (dat4 V c).arrAt_eq_of_cover 2 (matProd (left V c) (right V c)) (fun t _ => flushed_eq V c t) fun i => by
    have hi0 : (i 0).val < 1536 := (i 0).isLt
    have hi1 : (i 1).val < 1024 := (i 1).isLt
    have ht : (i 0).val / 256 < cfg4.N := by rw [show cfg4.N = 6 from N_4]; omega
    obtain ⟨-, -, -, -, e4, e5⟩ := block_index ⟨(i 0).val / 256, ht⟩
    refine ⟨⟨(i 0).val / 256, ht⟩, flush4_2 _, ?_⟩
    rw [mem_block]
    intro a
    match a with
    | ⟨0, _⟩ =>
      show win4_2.index ⟨(i 0).val / 256, ht⟩ (0 : Fin 2) * 256 ≤ (i 0).val ∧ (i 0).val < win4_2.index ⟨(i 0).val / 256, ht⟩ (0 : Fin 2) * 256 + 256
      rw [e4]; show (i 0).val / 256 * 256 ≤ (i 0).val ∧ (i 0).val < (i 0).val / 256 * 256 + 256; omega
    | ⟨1, _⟩ =>
      show win4_2.index ⟨(i 0).val / 256, ht⟩ (1 : Fin 2) * 1024 ≤ (i 1).val ∧ (i 1).val < win4_2.index ⟨(i 0).val / 256, ht⟩ (1 : Fin 2) * 1024 + 1024
      rw [e5]; omega

end Cert.KernelIdeal.Expert4

end
-- ==== Proof.Expert5.lean ====
/-
  Expert 5: the result array of launch 5 is the whole matrix product.

  Launch 5 walks the 768 rows of its left matrix in 3 blocks of 256 rows.  At grid point `t` the body reads rows
  `256·t … 256·t + 255` of the left matrix (all 1024 columns) and the whole right matrix, and writes rows
  `256·t … 256·t + 255` of the result: entry `(p, q)` of what it writes is the sum over `k` of
  `left (256·t + p, k) · right (k, q)`, which is entry `(256·t + p, q)` of the matrix product.  The 3 row blocks tile
  the result array, so after the last point the array IS the product of the two arrays the launch found.
  Everything is stated at the contents `V` of the buffers when the launch is entered.
-/
import proofs.«147274_j32349693674007_1_alg».proof.Proof.Gen.KernelIdeal.Frame
import proofs.«147274_j32349693674007_1_alg».proof.Proof.MatProd
import Idealize.ShloMosaic.Lib.Pipeline.Value

noncomputable section

open scoped BigOperators

namespace Cert.KernelIdeal.Expert5

open Cert.KernelIdeal Cert.KernelIdeal.Gen Idealize.ShloMosaic Idealize.ShloMosaic.TcCoe Idealize.SL.Sem
open Idealize.ShloMosaic.ValueIdx MatProd
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The left matrix and the right matrix as the launch finds them. -/
abbrev left (c : Dev nD) : S768x1024.Idx → EReal := V c main_arg10
abbrev right (c : Dev nD) : S1024x1024.Idx → EReal := V c main_arg11

/-- The block indices over the grid: the left and the result move down one row block per point, the right stays. -/
theorem block_index : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The body's value at `(p, q)`: row `p` of its row block against column `q` of its matrix. -/
theorem body_apply (x : FVec Ideal S256x1024 .f32) (w : FVec Ideal S1024x1024 .f32) (p : Fin 256) (q : Fin 1024) :
    k5_pay1 x w (ix2 p q) = ∑ k : Fin 1024, x (ix2 p k) * w (ix2 k q) := by
  unfold k5_pay1
  exact matmul_bf16_zero_apply _ rfl x w _ _ p q

/-- The left window's block at point `t` is rows `256·t …` of the left matrix. -/
theorem left_block (c : Dev nD) (t : Fin cfg5.N) (y : S256x1024.Idx) (i : S768x1024.Idx)
    (h0 : (i 0).val = t.val * 256 + (y 0).val) (h1 : (i 1).val = (y 1).val) :
    (iblk5 V c 0 t : FVec Ideal S256x1024 .f32) y = left V c i := by
  obtain ⟨e0, e1, -⟩ := block_index t
  unfold iblk5
  rw [View.read_apply]
  show V c main_arg10 _ = V c main_arg10 _
  refine congrArg (V c main_arg10) (funext fun a => Fin.ext ?_)
  match a with
  | ⟨0, _⟩ => show win5_0.index t (0 : Fin 2) * 256 + 1 * (y 0).val = (i 0).val; rw [e0, h0]; omega
  | ⟨1, _⟩ => show win5_0.index t (1 : Fin 2) * 1024 + 1 * (y 1).val = (i 1).val; rw [e1, h1]; omega

/-- The right window's block at every point is the whole right matrix. -/
theorem right_block (c : Dev nD) (t : Fin cfg5.N) (y : S1024x1024.Idx) :
    (iblk5 V c 1 t : FVec Ideal S1024x1024 .f32) y = right V c y := by
  obtain ⟨-, -, e2, e3, -⟩ := block_index t
  unfold iblk5
  rw [View.read_apply]
  show V c main_arg11 _ = V c main_arg11 _
  refine congrArg (V c main_arg11) (funext fun a => Fin.ext ?_)
  match a with
  | ⟨0, _⟩ => show win5_1.index t (0 : Fin 2) * 1024 + 1 * (y 0).val = (y 0).val; rw [e2]; omega
  | ⟨1, _⟩ => show win5_1.index t (1 : Fin 2) * 1024 + 1 * (y 1).val = (y 1).val; rw [e3]; omega

/-- What point `t` computes at `y` is the product's entry at row `256·t + y 0`, column `y 1`. -/
theorem body_at (c : Dev nD) (t : Fin cfg5.N) (y : S256x1024.Idx) (i : S768x1024.Idx)
    (h0 : (i 0).val = t.val * 256 + (y 0).val) (h1 : (i 1).val = (y 1).val) :
    k5_pay1 (iblk5 V c 0 t) (iblk5 V c 1 t) y = matProd (left V c) (right V c) i := by
  obtain ⟨p, q, rfl⟩ : ∃ (p : Fin 256) (q : Fin 1024), y = ix2 p q := ⟨y 0, y 1, eq_ix2 y⟩
  obtain ⟨r, s, rfl⟩ : ∃ (r : Fin 768) (s : Fin 1024), i = ix2 r s := ⟨i 0, i 1, eq_ix2 i⟩
  have hs : s = q := Fin.ext h1
  subst hs
  refine (body_apply (iblk5 V c 0 t) (iblk5 V c 1 t) p s).trans ?_
  rw [matProd_apply]
  refine Finset.sum_congr rfl fun k _ => ?_
  exact congrArg₂ (· * ·) (left_block V c t (ix2 p k) (ix2 r k) h0 rfl) (right_block V c t (ix2 k s))

/-- WHAT POINT `t` WRITES BACK is block `t` of the product. -/
theorem flushed_eq (c : Dev nD) (t : Fin cfg5.N) :
    (dat5 V c).flushed 2 t = ((cfg5.win 2).blk t).view.read (Elt Ideal) (matProd (left V c) (right V c)) := by
  show (cfg5.win 2).cut (grid5.coords t) ((dat5 V c).after 2 t) = _
  rw [after5_2]
  unfold out5_2
  rw [View.canon_unit_zero origin]
  simp only [View.ld_unit_zero (S := S256x1024) origin, View.ld_unit_zero (S := S1024x1024) origin]
  obtain ⟨-, -, -, -, e4, e5⟩ := block_index t
  funext j
  refine body_at V c t j (((cfg5.win 2).blk t).view.emb j) ?_ ?_
  · show win5_2.index t (0 : Fin 2) * 256 + 1 * (j 0).val = t.val * 256 + (j 0).val; rw [e4]; omega
  · show win5_2.index t (1 : Fin 2) * 1024 + 1 * (j 1).val = (j 1).val; rw [e5]; omega

/-- An index of the result is in point `t`'s block iff each coordinate is in the block's range on its axis. -/
theorem mem_block (t : Fin cfg5.N) (i : S768x1024.Idx) :
    i ∈ ((cfg5.win 2).blk t).view.set ↔ ∀ a : Fin 2, win5_2.index t a * S256x1024.size a ≤ (i a).val ∧ (i a).val < win5_2.index t a * S256x1024.size a + S256x1024.size a := by
  show i ∈ ((View.whole main_v5).slice (win5_2.rect t)).set ↔ _
  rw [View.set_slice_whole, Rect.mem_set_unit]
  exact Iff.rfl

/-- THE RESULT ARRAY after the launch is the product of the two arrays it found: row `r` lies in block `r / 256`. -/
theorem final (c : Dev nD) : (dat5 V c).arrAt 2 cfg5.N = matProd (left V c) (right V c) :=
  (dat5 V c).arrAt_eq_of_cover 2 (matProd (left V c) (right V c)) (fun t _ => flushed_eq V c t) fun i => by
    have hi0 : (i 0).val < 768 := (i 0).isLt
    have hi1 : (i 1).val < 1024 := (i 1).isLt
    have ht : (i 0).val / 256 < cfg5.N := by rw [show cfg5.N = 3 from N_5]; omega
    obtain ⟨-, -, -, -, e4, e5⟩ := block_index ⟨(i 0).val / 256, ht⟩
    refine ⟨⟨(i 0).val / 256, ht⟩, flush5_2 _, ?_⟩
    rw [mem_block]
    intro a
    match a with
    | ⟨0, _⟩ =>
      show win5_2.index ⟨(i 0).val / 256, ht⟩ (0 : Fin 2) * 256 ≤ (i 0).val ∧ (i 0).val < win5_2.index ⟨(i 0).val / 256, ht⟩ (0 : Fin 2) * 256 + 256
      rw [e4]; show (i 0).val / 256 * 256 ≤ (i 0).val ∧ (i 0).val < (i 0).val / 256 * 256 + 256; omega
    | ⟨1, _⟩ =>
      show win5_2.index ⟨(i 0).val / 256, ht⟩ (1 : Fin 2) * 1024 ≤ (i 1).val ∧ (i 1).val < win5_2.index ⟨(i 0).val / 256, ht⟩ (1 : Fin 2) * 1024 + 1024
      rw [e5]; omega

end Cert.KernelIdeal.Expert5

end
-- ==== Proof.Expert6.lean ====
/-
  Expert 6: the result array of launch 6 is the whole matrix product.

  Launch 6 walks the 3072 rows of its left matrix in 12 blocks of 256 rows.  At grid point `t` the body reads rows
  `256·t … 256·t + 255` of the left matrix (all 1024 columns) and the whole right matrix, and writes rows
  `256·t … 256·t + 255` of the result: entry `(p, q)` of what it writes is the sum over `k` of
  `left (256·t + p, k) · right (k, q)`, which is entry `(256·t + p, q)` of the matrix product.  The 12 row blocks tile
  the result array, so after the last point the array IS the product of the two arrays the launch found.
  Everything is stated at the contents `V` of the buffers when the launch is entered.
-/
import proofs.«147274_j32349693674007_1_alg».proof.Proof.Gen.KernelIdeal.Frame
import proofs.«147274_j32349693674007_1_alg».proof.Proof.MatProd
import Idealize.ShloMosaic.Lib.Pipeline.Value

noncomputable section

open scoped BigOperators

namespace Cert.KernelIdeal.Expert6

open Cert.KernelIdeal Cert.KernelIdeal.Gen Idealize.ShloMosaic Idealize.ShloMosaic.TcCoe Idealize.SL.Sem
open Idealize.ShloMosaic.ValueIdx MatProd
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The left matrix and the right matrix as the launch finds them. -/
abbrev left (c : Dev nD) : S3072x1024.Idx → EReal := V c main_arg12
abbrev right (c : Dev nD) : S1024x1024.Idx → EReal := V c main_arg13

/-- The block indices over the grid: the left and the result move down one row block per point, the right stays. -/
theorem block_index : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The body's value at `(p, q)`: row `p` of its row block against column `q` of its matrix. -/
theorem body_apply (x : FVec Ideal S256x1024 .f32) (w : FVec Ideal S1024x1024 .f32) (p : Fin 256) (q : Fin 1024) :
    k6_pay1 x w (ix2 p q) = ∑ k : Fin 1024, x (ix2 p k) * w (ix2 k q) := by
  unfold k6_pay1
  exact matmul_bf16_zero_apply _ rfl x w _ _ p q

/-- The left window's block at point `t` is rows `256·t …` of the left matrix. -/
theorem left_block (c : Dev nD) (t : Fin cfg6.N) (y : S256x1024.Idx) (i : S3072x1024.Idx)
    (h0 : (i 0).val = t.val * 256 + (y 0).val) (h1 : (i 1).val = (y 1).val) :
    (iblk6 V c 0 t : FVec Ideal S256x1024 .f32) y = left V c i := by
  obtain ⟨e0, e1, -⟩ := block_index t
  unfold iblk6
  rw [View.read_apply]
  show V c main_arg12 _ = V c main_arg12 _
  refine congrArg (V c main_arg12) (funext fun a => Fin.ext ?_)
  match a with
  | ⟨0, _⟩ => show win6_0.index t (0 : Fin 2) * 256 + 1 * (y 0).val = (i 0).val; rw [e0, h0]; omega
  | ⟨1, _⟩ => show win6_0.index t (1 : Fin 2) * 1024 + 1 * (y 1).val = (i 1).val; rw [e1, h1]; omega

/-- The right window's block at every point is the whole right matrix. -/
theorem right_block (c : Dev nD) (t : Fin cfg6.N) (y : S1024x1024.Idx) :
    (iblk6 V c 1 t : FVec Ideal S1024x1024 .f32) y = right V c y := by
  obtain ⟨-, -, e2, e3, -⟩ := block_index t
  unfold iblk6
  rw [View.read_apply]
  show V c main_arg13 _ = V c main_arg13 _
  refine congrArg (V c main_arg13) (funext fun a => Fin.ext ?_)
  match a with
  | ⟨0, _⟩ => show win6_1.index t (0 : Fin 2) * 1024 + 1 * (y 0).val = (y 0).val; rw [e2]; omega
  | ⟨1, _⟩ => show win6_1.index t (1 : Fin 2) * 1024 + 1 * (y 1).val = (y 1).val; rw [e3]; omega

/-- What point `t` computes at `y` is the product's entry at row `256·t + y 0`, column `y 1`. -/
theorem body_at (c : Dev nD) (t : Fin cfg6.N) (y : S256x1024.Idx) (i : S3072x1024.Idx)
    (h0 : (i 0).val = t.val * 256 + (y 0).val) (h1 : (i 1).val = (y 1).val) :
    k6_pay1 (iblk6 V c 0 t) (iblk6 V c 1 t) y = matProd (left V c) (right V c) i := by
  obtain ⟨p, q, rfl⟩ : ∃ (p : Fin 256) (q : Fin 1024), y = ix2 p q := ⟨y 0, y 1, eq_ix2 y⟩
  obtain ⟨r, s, rfl⟩ : ∃ (r : Fin 3072) (s : Fin 1024), i = ix2 r s := ⟨i 0, i 1, eq_ix2 i⟩
  have hs : s = q := Fin.ext h1
  subst hs
  refine (body_apply (iblk6 V c 0 t) (iblk6 V c 1 t) p s).trans ?_
  rw [matProd_apply]
  refine Finset.sum_congr rfl fun k _ => ?_
  exact congrArg₂ (· * ·) (left_block V c t (ix2 p k) (ix2 r k) h0 rfl) (right_block V c t (ix2 k s))

/-- WHAT POINT `t` WRITES BACK is block `t` of the product. -/
theorem flushed_eq (c : Dev nD) (t : Fin cfg6.N) :
    (dat6 V c).flushed 2 t = ((cfg6.win 2).blk t).view.read (Elt Ideal) (matProd (left V c) (right V c)) := by
  show (cfg6.win 2).cut (grid6.coords t) ((dat6 V c).after 2 t) = _
  rw [after6_2]
  unfold out6_2
  rw [View.canon_unit_zero origin]
  simp only [View.ld_unit_zero (S := S256x1024) origin, View.ld_unit_zero (S := S1024x1024) origin]
  obtain ⟨-, -, -, -, e4, e5⟩ := block_index t
  funext j
  refine body_at V c t j (((cfg6.win 2).blk t).view.emb j) ?_ ?_
  · show win6_2.index t (0 : Fin 2) * 256 + 1 * (j 0).val = t.val * 256 + (j 0).val; rw [e4]; omega
  · show win6_2.index t (1 : Fin 2) * 1024 + 1 * (j 1).val = (j 1).val; rw [e5]; omega

/-- An index of the result is in point `t`'s block iff each coordinate is in the block's range on its axis. -/
theorem mem_block (t : Fin cfg6.N) (i : S3072x1024.Idx) :
    i ∈ ((cfg6.win 2).blk t).view.set ↔ ∀ a : Fin 2, win6_2.index t a * S256x1024.size a ≤ (i a).val ∧ (i a).val < win6_2.index t a * S256x1024.size a + S256x1024.size a := by
  show i ∈ ((View.whole main_v6).slice (win6_2.rect t)).set ↔ _
  rw [View.set_slice_whole, Rect.mem_set_unit]
  exact Iff.rfl

/-- THE RESULT ARRAY after the launch is the product of the two arrays it found: row `r` lies in block `r / 256`. -/
theorem final (c : Dev nD) : (dat6 V c).arrAt 2 cfg6.N = matProd (left V c) (right V c) :=
  (dat6 V c).arrAt_eq_of_cover 2 (matProd (left V c) (right V c)) (fun t _ => flushed_eq V c t) fun i => by
    have hi0 : (i 0).val < 3072 := (i 0).isLt
    have hi1 : (i 1).val < 1024 := (i 1).isLt
    have ht : (i 0).val / 256 < cfg6.N := by rw [show cfg6.N = 12 from N_6]; omega
    obtain ⟨-, -, -, -, e4, e5⟩ := block_index ⟨(i 0).val / 256, ht⟩
    refine ⟨⟨(i 0).val / 256, ht⟩, flush6_2 _, ?_⟩
    rw [mem_block]
    intro a
    match a with
    | ⟨0, _⟩ =>
      show win6_2.index ⟨(i 0).val / 256, ht⟩ (0 : Fin 2) * 256 ≤ (i 0).val ∧ (i 0).val < win6_2.index ⟨(i 0).val / 256, ht⟩ (0 : Fin 2) * 256 + 256
      rw [e4]; show (i 0).val / 256 * 256 ≤ (i 0).val ∧ (i 0).val < (i 0).val / 256 * 256 + 256; omega
    | ⟨1, _⟩ =>
      show win6_2.index ⟨(i 0).val / 256, ht⟩ (1 : Fin 2) * 1024 ≤ (i 1).val ∧ (i 1).val < win6_2.index ⟨(i 0).val / 256, ht⟩ (1 : Fin 2) * 1024 + 1024
      rw [e5]; omega

end Cert.KernelIdeal.Expert6

end
-- ==== Proof.Expert7.lean ====
/-
  Expert 7: the result array of launch 7 is the whole matrix product.

  Launch 7 walks the 2560 rows of its left matrix in 10 blocks of 256 rows.  At grid point `t` the body reads rows
  `256·t … 256·t + 255` of the left matrix (all 1024 columns) and the whole right matrix, and writes rows
  `256·t … 256·t + 255` of the result: entry `(p, q)` of what it writes is the sum over `k` of
  `left (256·t + p, k) · right (k, q)`, which is entry `(256·t + p, q)` of the matrix product.  The 10 row blocks tile
  the result array, so after the last point the array IS the product of the two arrays the launch found.
  Everything is stated at the contents `V` of the buffers when the launch is entered.
-/
import proofs.«147274_j32349693674007_1_alg».proof.Proof.Gen.KernelIdeal.Frame
import proofs.«147274_j32349693674007_1_alg».proof.Proof.MatProd
import Idealize.ShloMosaic.Lib.Pipeline.Value

noncomputable section

open scoped BigOperators

namespace Cert.KernelIdeal.Expert7

open Cert.KernelIdeal Cert.KernelIdeal.Gen Idealize.ShloMosaic Idealize.ShloMosaic.TcCoe Idealize.SL.Sem
open Idealize.ShloMosaic.ValueIdx MatProd
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The left matrix and the right matrix as the launch finds them. -/
abbrev left (c : Dev nD) : S2560x1024.Idx → EReal := V c main_arg14
abbrev right (c : Dev nD) : S1024x1024.Idx → EReal := V c main_arg15

/-- The block indices over the grid: the left and the result move down one row block per point, the right stays. -/
theorem block_index : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- The body's value at `(p, q)`: row `p` of its row block against column `q` of its matrix. -/
theorem body_apply (x : FVec Ideal S256x1024 .f32) (w : FVec Ideal S1024x1024 .f32) (p : Fin 256) (q : Fin 1024) :
    k7_pay1 x w (ix2 p q) = ∑ k : Fin 1024, x (ix2 p k) * w (ix2 k q) := by
  unfold k7_pay1
  exact matmul_bf16_zero_apply _ rfl x w _ _ p q

/-- The left window's block at point `t` is rows `256·t …` of the left matrix. -/
theorem left_block (c : Dev nD) (t : Fin cfg7.N) (y : S256x1024.Idx) (i : S2560x1024.Idx)
    (h0 : (i 0).val = t.val * 256 + (y 0).val) (h1 : (i 1).val = (y 1).val) :
    (iblk7 V c 0 t : FVec Ideal S256x1024 .f32) y = left V c i := by
  obtain ⟨e0, e1, -⟩ := block_index t
  unfold iblk7
  rw [View.read_apply]
  show V c main_arg14 _ = V c main_arg14 _
  refine congrArg (V c main_arg14) (funext fun a => Fin.ext ?_)
  match a with
  | ⟨0, _⟩ => show win7_0.index t (0 : Fin 2) * 256 + 1 * (y 0).val = (i 0).val; rw [e0, h0]; omega
  | ⟨1, _⟩ => show win7_0.index t (1 : Fin 2) * 1024 + 1 * (y 1).val = (i 1).val; rw [e1, h1]; omega

/-- The right window's block at every point is the whole right matrix. -/
theorem right_block (c : Dev nD) (t : Fin cfg7.N) (y : S1024x1024.Idx) :
    (iblk7 V c 1 t : FVec Ideal S1024x1024 .f32) y = right V c y := by
  obtain ⟨-, -, e2, e3, -⟩ := block_index t
  unfold iblk7
  rw [View.read_apply]
  show V c main_arg15 _ = V c main_arg15 _
  refine congrArg (V c main_arg15) (funext fun a => Fin.ext ?_)
  match a with
  | ⟨0, _⟩ => show win7_1.index t (0 : Fin 2) * 1024 + 1 * (y 0).val = (y 0).val; rw [e2]; omega
  | ⟨1, _⟩ => show win7_1.index t (1 : Fin 2) * 1024 + 1 * (y 1).val = (y 1).val; rw [e3]; omega

/-- What point `t` computes at `y` is the product's entry at row `256·t + y 0`, column `y 1`. -/
theorem body_at (c : Dev nD) (t : Fin cfg7.N) (y : S256x1024.Idx) (i : S2560x1024.Idx)
    (h0 : (i 0).val = t.val * 256 + (y 0).val) (h1 : (i 1).val = (y 1).val) :
    k7_pay1 (iblk7 V c 0 t) (iblk7 V c 1 t) y = matProd (left V c) (right V c) i := by
  obtain ⟨p, q, rfl⟩ : ∃ (p : Fin 256) (q : Fin 1024), y = ix2 p q := ⟨y 0, y 1, eq_ix2 y⟩
  obtain ⟨r, s, rfl⟩ : ∃ (r : Fin 2560) (s : Fin 1024), i = ix2 r s := ⟨i 0, i 1, eq_ix2 i⟩
  have hs : s = q := Fin.ext h1
  subst hs
  refine (body_apply (iblk7 V c 0 t) (iblk7 V c 1 t) p s).trans ?_
  rw [matProd_apply]
  refine Finset.sum_congr rfl fun k _ => ?_
  exact congrArg₂ (· * ·) (left_block V c t (ix2 p k) (ix2 r k) h0 rfl) (right_block V c t (ix2 k s))

/-- WHAT POINT `t` WRITES BACK is block `t` of the product. -/
theorem flushed_eq (c : Dev nD) (t : Fin cfg7.N) :
    (dat7 V c).flushed 2 t = ((cfg7.win 2).blk t).view.read (Elt Ideal) (matProd (left V c) (right V c)) := by
  show (cfg7.win 2).cut (grid7.coords t) ((dat7 V c).after 2 t) = _
  rw [after7_2]
  unfold out7_2
  rw [View.canon_unit_zero origin]
  simp only [View.ld_unit_zero (S := S256x1024) origin, View.ld_unit_zero (S := S1024x1024) origin]
  obtain ⟨-, -, -, -, e4, e5⟩ := block_index t
  funext j
  refine body_at V c t j (((cfg7.win 2).blk t).view.emb j) ?_ ?_
  · show win7_2.index t (0 : Fin 2) * 256 + 1 * (j 0).val = t.val * 256 + (j 0).val; rw [e4]; omega
  · show win7_2.index t (1 : Fin 2) * 1024 + 1 * (j 1).val = (j 1).val; rw [e5]; omega

/-- An index of the result is in point `t`'s block iff each coordinate is in the block's range on its axis. -/
theorem mem_block (t : Fin cfg7.N) (i : S2560x1024.Idx) :
    i ∈ ((cfg7.win 2).blk t).view.set ↔ ∀ a : Fin 2, win7_2.index t a * S256x1024.size a ≤ (i a).val ∧ (i a).val < win7_2.index t a * S256x1024.size a + S256x1024.size a := by
  show i ∈ ((View.whole main_v7).slice (win7_2.rect t)).set ↔ _
  rw [View.set_slice_whole, Rect.mem_set_unit]
  exact Iff.rfl

/-- THE RESULT ARRAY after the launch is the product of the two arrays it found: row `r` lies in block `r / 256`. -/
theorem final (c : Dev nD) : (dat7 V c).arrAt 2 cfg7.N = matProd (left V c) (right V c) :=
  (dat7 V c).arrAt_eq_of_cover 2 (matProd (left V c) (right V c)) (fun t _ => flushed_eq V c t) fun i => by
    have hi0 : (i 0).val < 2560 := (i 0).isLt
    have hi1 : (i 1).val < 1024 := (i 1).isLt
    have ht : (i 0).val / 256 < cfg7.N := by rw [show cfg7.N = 10 from N_7]; omega
    obtain ⟨-, -, -, -, e4, e5⟩ := block_index ⟨(i 0).val / 256, ht⟩
    refine ⟨⟨(i 0).val / 256, ht⟩, flush7_2 _, ?_⟩
    rw [mem_block]
    intro a
    match a with
    | ⟨0, _⟩ =>
      show win7_2.index ⟨(i 0).val / 256, ht⟩ (0 : Fin 2) * 256 ≤ (i 0).val ∧ (i 0).val < win7_2.index ⟨(i 0).val / 256, ht⟩ (0 : Fin 2) * 256 + 256
      rw [e4]; show (i 0).val / 256 * 256 ≤ (i 0).val ∧ (i 0).val < (i 0).val / 256 * 256 + 256; omega
    | ⟨1, _⟩ =>
      show win7_2.index ⟨(i 0).val / 256, ht⟩ (1 : Fin 2) * 1024 ≤ (i 1).val ∧ (i 1).val < win7_2.index ⟨(i 0).val / 256, ht⟩ (1 : Fin 2) * 1024 + 1024
      rw [e5]; omega

end Cert.KernelIdeal.Expert7

end
-- ==== Proof.Results.lean ====
/-
  The eight result arrays after the run, each as a matrix product of two launch-time arguments.

  The run's buffer contents pass through nine boundaries: the launch, and the exit of each of the eight launches.  A launch
  changes only its own result array (its two inputs are staged and never written back), so
    * a buffer that none of the launches `k, …, 7` has among its arrays holds at the end what it held when launch `k`
      was entered (`kept_from`), and
    * a buffer that none of the launches `0, …, k - 1` has among its arrays holds at launch `k`'s entry what it held at
      the launch of the program (`as_launched`).
  Launch `k` leaves in its result array the product of its two inputs as it found them (`Expert‹k›.final`); its
  inputs are arguments no earlier launch touches, and its result array is touched by no later one.  Hence result
  `k` ends as the product of arguments `2k` and `2k + 1` as launched.
-/
import proofs.«147274_j32349693674007_1_alg».proof.Proof.Expert0
import proofs.«147274_j32349693674007_1_alg».proof.Proof.Expert1
import proofs.«147274_j32349693674007_1_alg».proof.Proof.Expert2
import proofs.«147274_j32349693674007_1_alg».proof.Proof.Expert3
import proofs.«147274_j32349693674007_1_alg».proof.Proof.Expert4
import proofs.«147274_j32349693674007_1_alg».proof.Proof.Expert5
import proofs.«147274_j32349693674007_1_alg».proof.Proof.Expert6
import proofs.«147274_j32349693674007_1_alg».proof.Proof.Expert7

noncomputable section

namespace Cert.KernelIdeal.Results

open Cert.KernelIdeal Cert.KernelIdeal.Gen Idealize.ShloMosaic Idealize.ShloMosaic.TcCoe Idealize.SL.Sem MatProd

variable (m : (ℓ : Loc nD τ sig) → Buf (Elt Ideal) ℓ) (ρ : Dev nD → PrngReg)

/-! ## A buffer no later launch touches keeps its contents to the end -/

section Kept
variable (c : Dev nD) (b : Ref sig .tc)

theorem kept_from7 (h7 : ∀ w, Pipeline.arrRef spec7 w ≠ b) : W8 m ρ c (Proc.devRef .tc b) = W7 m ρ c (Proc.devRef .tc b) :=
  W8_of_ne m ρ c b h7
theorem kept_from6 (h6 : ∀ w, Pipeline.arrRef spec6 w ≠ b) (h7 : ∀ w, Pipeline.arrRef spec7 w ≠ b) : W8 m ρ c (Proc.devRef .tc b) = W6 m ρ c (Proc.devRef .tc b) :=
  (kept_from7 m ρ c b h7).trans (W7_of_ne m ρ c b h6)
theorem kept_from5 (h5 : ∀ w, Pipeline.arrRef spec5 w ≠ b) (h6 : ∀ w, Pipeline.arrRef spec6 w ≠ b) (h7 : ∀ w, Pipeline.arrRef spec7 w ≠ b) : W8 m ρ c (Proc.devRef .tc b) = W5 m ρ c (Proc.devRef .tc b) :=
  (kept_from6 m ρ c b h6 h7).trans (W6_of_ne m ρ c b h5)
theorem kept_from4 (h4 : ∀ w, Pipeline.arrRef spec4 w ≠ b) (h5 : ∀ w, Pipeline.arrRef spec5 w ≠ b) (h6 : ∀ w, Pipeline.arrRef spec6 w ≠ b) (h7 : ∀ w, Pipeline.arrRef spec7 w ≠ b) : W8 m ρ c (Proc.devRef .tc b) = W4 m ρ c (Proc.devRef .tc b) :=
  (kept_from5 m ρ c b h5 h6 h7).trans (W5_of_ne m ρ c b h4)
theorem kept_from3 (h3 : ∀ w, Pipeline.arrRef spec3 w ≠ b) (h4 : ∀ w, Pipeline.arrRef spec4 w ≠ b) (h5 : ∀ w, Pipeline.arrRef spec5 w ≠ b) (h6 : ∀ w, Pipeline.arrRef spec6 w ≠ b) (h7 : ∀ w, Pipeline.arrRef spec7 w ≠ b) : W8 m ρ c (Proc.devRef .tc b) = W3 m ρ c (Proc.devRef .tc b) :=
  (kept_from4 m ρ c b h4 h5 h6 h7).trans (W4_of_ne m ρ c b h3)
theorem kept_from2 (h2 : ∀ w, Pipeline.arrRef spec2 w ≠ b) (h3 : ∀ w, Pipeline.arrRef spec3 w ≠ b) (h4 : ∀ w, Pipeline.arrRef spec4 w ≠ b) (h5 : ∀ w, Pipeline.arrRef spec5 w ≠ b) (h6 : ∀ w, Pipeline.arrRef spec6 w ≠ b) (h7 : ∀ w, Pipeline.arrRef spec7 w ≠ b) : W8 m ρ c (Proc.devRef .tc b) = W2 m ρ c (Proc.devRef .tc b) :=
  (kept_from3 m ρ c b h3 h4 h5 h6 h7).trans (W3_of_ne m ρ c b h2)
theorem kept_from1 (h1 : ∀ w, Pipeline.arrRef spec1 w ≠ b) (h2 : ∀ w, Pipeline.arrRef spec2 w ≠ b) (h3 : ∀ w, Pipeline.arrRef spec3 w ≠ b) (h4 : ∀ w, Pipeline.arrRef spec4 w ≠ b) (h5 : ∀ w, Pipeline.arrRef spec5 w ≠ b) (h6 : ∀ w, Pipeline.arrRef spec6 w ≠ b) (h7 : ∀ w, Pipeline.arrRef spec7 w ≠ b) : W8 m ρ c (Proc.devRef .tc b) = W1 m ρ c (Proc.devRef .tc b) :=
  (kept_from2 m ρ c b h2 h3 h4 h5 h6 h7).trans (W2_of_ne m ρ c b h1)

/-! ## A buffer no earlier launch touches is as launched -/

theorem as_launched0 : V0 m ρ c b = m ((c : Thread nD τ).loc b) := rfl
theorem as_launched1 (h0 : ∀ w, Pipeline.arrRef spec0 w ≠ b) : V1 m ρ c b = m ((c : Thread nD τ).loc b) :=
  (W1_of_ne m ρ c b h0).trans (as_launched0 m ρ c b)
theorem as_launched2 (h0 : ∀ w, Pipeline.arrRef spec0 w ≠ b) (h1 : ∀ w, Pipeline.arrRef spec1 w ≠ b) : V2 m ρ c b = m ((c : Thread nD τ).loc b) :=
  (W2_of_ne m ρ c b h1).trans (as_launched1 m ρ c b h0)
theorem as_launched3 (h0 : ∀ w, Pipeline.arrRef spec0 w ≠ b) (h1 : ∀ w, Pipeline.arrRef spec1 w ≠ b) (h2 : ∀ w, Pipeline.arrRef spec2 w ≠ b) : V3 m ρ c b = m ((c : Thread nD τ).loc b) :=
  (W3_of_ne m ρ c b h2).trans (as_launched2 m ρ c b h0 h1)
theorem as_launched4 (h0 : ∀ w, Pipeline.arrRef spec0 w ≠ b) (h1 : ∀ w, Pipeline.arrRef spec1 w ≠ b) (h2 : ∀ w, Pipeline.arrRef spec2 w ≠ b) (h3 : ∀ w, Pipeline.arrRef spec3 w ≠ b) : V4 m ρ c b = m ((c : Thread nD τ).loc b) :=
  (W4_of_ne m ρ c b h3).trans (as_launched3 m ρ c b h0 h1 h2)
theorem as_launched5 (h0 : ∀ w, Pipeline.arrRef spec0 w ≠ b) (h1 : ∀ w, Pipeline.arrRef spec1 w ≠ b) (h2 : ∀ w, Pipeline.arrRef spec2 w ≠ b) (h3 : ∀ w, Pipeline.arrRef spec3 w ≠ b) (h4 : ∀ w, Pipeline.arrRef spec4 w ≠ b) : V5 m ρ c b = m ((c : Thread nD τ).loc b) :=
  (W5_of_ne m ρ c b h4).trans (as_launched4 m ρ c b h0 h1 h2 h3)
theorem as_launched6 (h0 : ∀ w, Pipeline.arrRef spec0 w ≠ b) (h1 : ∀ w, Pipeline.arrRef spec1 w ≠ b) (h2 : ∀ w, Pipeline.arrRef spec2 w ≠ b) (h3 : ∀ w, Pipeline.arrRef spec3 w ≠ b) (h4 : ∀ w, Pipeline.arrRef spec4 w ≠ b) (h5 : ∀ w, Pipeline.arrRef spec5 w ≠ b) : V6 m ρ c b = m ((c : Thread nD τ).loc b) :=
  (W6_of_ne m ρ c b h5).trans (as_launched5 m ρ c b h0 h1 h2 h3 h4)
theorem as_launched7 (h0 : ∀ w, Pipeline.arrRef spec0 w ≠ b) (h1 : ∀ w, Pipeline.arrRef spec1 w ≠ b) (h2 : ∀ w, Pipeline.arrRef spec2 w ≠ b) (h3 : ∀ w, Pipeline.arrRef spec3 w ≠ b) (h4 : ∀ w, Pipeline.arrRef spec4 w ≠ b) (h5 : ∀ w, Pipeline.arrRef spec5 w ≠ b) (h6 : ∀ w, Pipeline.arrRef spec6 w ≠ b) : V7 m ρ c b = m ((c : Thread nD τ).loc b) :=
  (W7_of_ne m ρ c b h6).trans (as_launched6 m ρ c b h0 h1 h2 h3 h4 h5)

end Kept

/-! ## The eight results -/

theorem result0 (c : Dev nD) : W8 m ρ c (Proc.devRef .tc main_v0)
    = matProd (M := 512) (K := 1024) (N := 1024) (m ((c : Thread nD τ).loc main_arg0)) (m ((c : Thread nD τ).loc main_arg1)) :=
  ((kept_from1 m ρ c main_v0 (by decide) (by decide) (by decide) (by decide) (by decide) (by decide) (by decide)).trans (W1_arr m ρ c 2)).trans
    ((Expert0.final (V0 m ρ) c).trans (congrArg₂ (matProd (M := 512) (K := 1024) (N := 1024))
      (as_launched0 m ρ c main_arg0) (as_launched0 m ρ c main_arg1)))

theorem result1 (c : Dev nD) : W8 m ρ c (Proc.devRef .tc main_v1)
    = matProd (M := 1024) (K := 1024) (N := 1024) (m ((c : Thread nD τ).loc main_arg2)) (m ((c : Thread nD τ).loc main_arg3)) :=
  ((kept_from2 m ρ c main_v1 (by decide) (by decide) (by decide) (by decide) (by decide) (by decide)).trans (W2_arr m ρ c 2)).trans
    ((Expert1.final (V1 m ρ) c).trans (congrArg₂ (matProd (M := 1024) (K := 1024) (N := 1024))
      (as_launched1 m ρ c main_arg2 (by decide)) (as_launched1 m ρ c main_arg3 (by decide))))

theorem result2 (c : Dev nD) : W8 m ρ c (Proc.devRef .tc main_v2)
    = matProd (M := 2048) (K := 1024) (N := 1024) (m ((c : Thread nD τ).loc main_arg4)) (m ((c : Thread nD τ).loc main_arg5)) :=
  ((kept_from3 m ρ c main_v2 (by decide) (by decide) (by decide) (by decide) (by decide)).trans (W3_arr m ρ c 2)).trans
    ((Expert2.final (V2 m ρ) c).trans (congrArg₂ (matProd (M := 2048) (K := 1024) (N := 1024))
      (as_launched2 m ρ c main_arg4 (by decide) (by decide)) (as_launched2 m ρ c main_arg5 (by decide) (by decide))))

theorem result3 (c : Dev nD) : W8 m ρ c (Proc.devRef .tc main_v3)
    = matProd (M := 4096) (K := 1024) (N := 1024) (m ((c : Thread nD τ).loc main_arg6)) (m ((c : Thread nD τ).loc main_arg7)) :=
  ((kept_from4 m ρ c main_v3 (by decide) (by decide) (by decide) (by decide)).trans (W4_arr m ρ c 2)).trans
    ((Expert3.final (V3 m ρ) c).trans (congrArg₂ (matProd (M := 4096) (K := 1024) (N := 1024))
      (as_launched3 m ρ c main_arg6 (by decide) (by decide) (by decide)) (as_launched3 m ρ c main_arg7 (by decide) (by decide) (by decide))))

theorem result4 (c : Dev nD) : W8 m ρ c (Proc.devRef .tc main_v4)
    = matProd (M := 1536) (K := 1024) (N := 1024) (m ((c : Thread nD τ).loc main_arg8)) (m ((c : Thread nD τ).loc main_arg9)) :=
  ((kept_from5 m ρ c main_v4 (by decide) (by decide) (by decide)).trans (W5_arr m ρ c 2)).trans
    ((Expert4.final (V4 m ρ) c).trans (congrArg₂ (matProd (M := 1536) (K := 1024) (N := 1024))
      (as_launched4 m ρ c main_arg8 (by decide) (by decide) (by decide) (by decide))
      (as_launched4 m ρ c main_arg9 (by decide) (by decide) (by decide) (by decide))))

theorem result5 (c : Dev nD) : W8 m ρ c (Proc.devRef .tc main_v5)
    = matProd (M := 768) (K := 1024) (N := 1024) (m ((c : Thread nD τ).loc main_arg10)) (m ((c : Thread nD τ).loc main_arg11)) :=
  ((kept_from6 m ρ c main_v5 (by decide) (by decide)).trans (W6_arr m ρ c 2)).trans
    ((Expert5.final (V5 m ρ) c).trans (congrArg₂ (matProd (M := 768) (K := 1024) (N := 1024))
      (as_launched5 m ρ c main_arg10 (by decide) (by decide) (by decide) (by decide) (by decide))
      (as_launched5 m ρ c main_arg11 (by decide) (by decide) (by decide) (by decide) (by decide))))

theorem result6 (c : Dev nD) : W8 m ρ c (Proc.devRef .tc main_v6)
    = matProd (M := 3072) (K := 1024) (N := 1024) (m ((c : Thread nD τ).loc main_arg12)) (m ((c : Thread nD τ).loc main_arg13)) :=
  ((kept_from7 m ρ c main_v6 (by decide)).trans (W7_arr m ρ c 2)).trans
    ((Expert6.final (V6 m ρ) c).trans (congrArg₂ (matProd (M := 3072) (K := 1024) (N := 1024))
      (as_launched6 m ρ c main_arg12 (by decide) (by decide) (by decide) (by decide) (by decide) (by decide))
      (as_launched6 m ρ c main_arg13 (by decide) (by decide) (by decide) (by decide) (by decide) (by decide))))

theorem result7 (c : Dev nD) : W8 m ρ c (Proc.devRef .tc main_v7)
    = matProd (M := 2560) (K := 1024) (N := 1024) (m ((c : Thread nD τ).loc main_arg14)) (m ((c : Thread nD τ).loc main_arg15)) :=
  (W8_arr m ρ c 2).trans
    ((Expert7.final (V7 m ρ) c).trans (congrArg₂ (matProd (M := 2560) (K := 1024) (N := 1024))
      (as_launched7 m ρ c main_arg14 (by decide) (by decide) (by decide) (by decide) (by decide) (by decide) (by decide))
      (as_launched7 m ρ c main_arg15 (by decide) (by decide) (by decide) (by decide) (by decide) (by decide) (by decide))))

end Cert.KernelIdeal.Results

end
-- ==== Proof.KernelRun.lean ====
/-
  The idealized kernel's run, read: each of the eight result arrays ends as the matrix product of its two arguments
  as launched, and every argument ends unchanged.  The run itself is the launch theorem's (its result buffers read at
  the last boundary's contents); what each of those contents is, is `Results.result‹k›`.
-/
import proofs.«147274_j32349693674007_1_alg».proof.Proof.RunKept
import proofs.«147274_j32349693674007_1_alg».proof.Proof.Results

noncomputable section

namespace Cert.KernelIdeal.Products

open Cert.KernelIdeal Cert.KernelIdeal.Gen Idealize.ShloMosaic Idealize.ShloMosaic.TcCoe Idealize.SL.Sem MatProd

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v0) = matProd (M := 512) (K := 1024) (N := 1024) (m ((c.tc : Thread nD τ).loc main_arg0)) (m ((c.tc : Thread nD τ).loc main_arg1))
      ∧ r.2.mem ((c.tc : Thread nD τ).loc main_v1) = matProd (M := 1024) (K := 1024) (N := 1024) (m ((c.tc : Thread nD τ).loc main_arg2)) (m ((c.tc : Thread nD τ).loc main_arg3))
      ∧ r.2.mem ((c.tc : Thread nD τ).loc main_v2) = matProd (M := 2048) (K := 1024) (N := 1024) (m ((c.tc : Thread nD τ).loc main_arg4)) (m ((c.tc : Thread nD τ).loc main_arg5))
      ∧ r.2.mem ((c.tc : Thread nD τ).loc main_v3) = matProd (M := 4096) (K := 1024) (N := 1024) (m ((c.tc : Thread nD τ).loc main_arg6)) (m ((c.tc : Thread nD τ).loc main_arg7))
      ∧ r.2.mem ((c.tc : Thread nD τ).loc main_v4) = matProd (M := 1536) (K := 1024) (N := 1024) (m ((c.tc : Thread nD τ).loc main_arg8)) (m ((c.tc : Thread nD τ).loc main_arg9))
      ∧ r.2.mem ((c.tc : Thread nD τ).loc main_v5) = matProd (M := 768) (K := 1024) (N := 1024) (m ((c.tc : Thread nD τ).loc main_arg10)) (m ((c.tc : Thread nD τ).loc main_arg11))
      ∧ r.2.mem ((c.tc : Thread nD τ).loc main_v6) = matProd (M := 3072) (K := 1024) (N := 1024) (m ((c.tc : Thread nD τ).loc main_arg12)) (m ((c.tc : Thread nD τ).loc main_arg13))
      ∧ r.2.mem ((c.tc : Thread nD τ).loc main_v7) = matProd (M := 2560) (K := 1024) (N := 1024) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => ⟨
      (h c).1.trans (Results.result0 m ρ c),
      (h c).2.1.trans (Results.result1 m ρ c),
      (h c).2.2.1.trans (Results.result2 m ρ c),
      (h c).2.2.2.1.trans (Results.result3 m ρ c),
      (h c).2.2.2.2.1.trans (Results.result4 m ρ c),
      (h c).2.2.2.2.2.1.trans (Results.result5 m ρ c),
      (h c).2.2.2.2.2.2.1.trans (Results.result6 m ρ c),
      (h c).2.2.2.2.2.2.2.1.trans (Results.result7 m ρ c),
      (h c).2.2.2.2.2.2.2.2⟩)
    (Cert.KernelIdeal.Kept.run_kept (F := Ideal) m ρ)

end Cert.KernelIdeal.Products

end
-- ==== Proof.Reference.lean ====
/-
  The idealized reference's run, read: each of its eight `dot_general`s contracts the left argument's columns against
  the right argument's rows, so each result is the matrix product of its two arguments (`MatProd.dotGeneral_eq_matProd`);
  every argument ends unchanged.
-/
import proofs.«147274_j32349693674007_1_alg».proof.Proof.Gen.ReferenceIdeal.Run
import proofs.«147274_j32349693674007_1_alg».proof.Proof.MatProd

noncomputable section

namespace Cert.ReferenceIdeal.Products

open Cert.ReferenceIdeal Cert.ReferenceIdeal.Gen Idealize.ShloMosaic Idealize.ShloMosaic.TcCoe Idealize.SL.Sem MatProd

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v0) = matProd (M := 512) (K := 1024) (N := 1024) (m ((c.tc : Thread nD τ).loc main_arg0)) (m ((c.tc : Thread nD τ).loc main_arg1))
      ∧ r.2.mem ((c.tc : Thread nD τ).loc main_v1) = matProd (M := 1024) (K := 1024) (N := 1024) (m ((c.tc : Thread nD τ).loc main_arg2)) (m ((c.tc : Thread nD τ).loc main_arg3))
      ∧ r.2.mem ((c.tc : Thread nD τ).loc main_v2) = matProd (M := 2048) (K := 1024) (N := 1024) (m ((c.tc : Thread nD τ).loc main_arg4)) (m ((c.tc : Thread nD τ).loc main_arg5))
      ∧ r.2.mem ((c.tc : Thread nD τ).loc main_v3) = matProd (M := 4096) (K := 1024) (N := 1024) (m ((c.tc : Thread nD τ).loc main_arg6)) (m ((c.tc : Thread nD τ).loc main_arg7))
      ∧ r.2.mem ((c.tc : Thread nD τ).loc main_v4) = matProd (M := 1536) (K := 1024) (N := 1024) (m ((c.tc : Thread nD τ).loc main_arg8)) (m ((c.tc : Thread nD τ).loc main_arg9))
      ∧ r.2.mem ((c.tc : Thread nD τ).loc main_v5) = matProd (M := 768) (K := 1024) (N := 1024) (m ((c.tc : Thread nD τ).loc main_arg10)) (m ((c.tc : Thread nD τ).loc main_arg11))
      ∧ r.2.mem ((c.tc : Thread nD τ).loc main_v6) = matProd (M := 3072) (K := 1024) (N := 1024) (m ((c.tc : Thread nD τ).loc main_arg12)) (m ((c.tc : Thread nD τ).loc main_arg13))
      ∧ r.2.mem ((c.tc : Thread nD τ).loc main_v7) = matProd (M := 2560) (K := 1024) (N := 1024) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => ⟨
      (h c).1.trans (dotGeneral_eq_matProd _ rfl none _ _),
      (h c).2.1.trans (dotGeneral_eq_matProd _ rfl none _ _),
      (h c).2.2.1.trans (dotGeneral_eq_matProd _ rfl none _ _),
      (h c).2.2.2.1.trans (dotGeneral_eq_matProd _ rfl none _ _),
      (h c).2.2.2.2.1.trans (dotGeneral_eq_matProd _ rfl none _ _),
      (h c).2.2.2.2.2.1.trans (dotGeneral_eq_matProd _ rfl none _ _),
      (h c).2.2.2.2.2.2.1.trans (dotGeneral_eq_matProd _ rfl none _ _),
      (h c).2.2.2.2.2.2.2.1.trans (dotGeneral_eq_matProd _ rfl none _ _),
      (h c).2.2.2.2.2.2.2.2⟩)
    (Cert.ReferenceIdeal.Value.run (F := Ideal) m ρ)

end Cert.ReferenceIdeal.Products

end
-- ==== Proof.lean ====
/-
  Eight independent matrix products, one per expert: `out_k = a_k · b_k` with `a_k` of 512, 1024, 2048, 4096, 1536, 768,
  3072 and 2560 rows and 1024 columns, and every `b_k` 1024 × 1024.

  The kernel computes product `k` in its own launch, 256 rows of `a_k` at a time against the whole of `b_k`: it narrows
  both operands to bf16, multiplies them into an all-zero f32 accumulator, and stores the block of 256 result rows.  The
  reference is one `dot_general` per product.  Read on the extended reals the narrowing is the identity and the zero
  accumulator adds nothing, so entry `(r, q)` of either side is the SAME sum over `k` of `a (r, k) · b (k, q)`, in the same
  order; no term is moved, and the precondition (finite inputs) is never opened.

  The three frames are the generated ones (the reference's is its generated run with the results dropped); the ideal pass
  rewrote nothing, so the idealization claim is `True`.  For the value claim: `Expert‹k›.final` — launch `k` leaves the
  product of its two inputs in its result array (its row blocks tile the array) —, `Results.result‹k›` — no other launch
  touches that array or those inputs, so at the end result `k` is the product of arguments `2k`, `2k + 1` as launched —,
  `KernelIdeal.Products.run` and `ReferenceIdeal.Products.run` — the two runs with every result at that product —, and the
  arguments' agreement.
-/
import proofs.«147274_j32349693674007_1_alg».proof.Defs
import proofs.«147274_j32349693674007_1_alg».proof.Proof.Gen.Kernel
import proofs.«147274_j32349693674007_1_alg».proof.Proof.Gen.Kernel.Frame
import proofs.«147274_j32349693674007_1_alg».proof.Proof.Gen.KernelIdeal
import proofs.«147274_j32349693674007_1_alg».proof.Proof.Gen.KernelIdeal.Frame
import proofs.«147274_j32349693674007_1_alg».proof.Proof.Gen.ReferenceIdeal
import proofs.«147274_j32349693674007_1_alg».proof.Proof.Gen.Pre_finite_inputs
import proofs.«147274_j32349693674007_1_alg».proof.Proof.KernelRun
import proofs.«147274_j32349693674007_1_alg».proof.Proof.Reference

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its generated run, the eight results dropped. -/
theorem frame_reference : Cert.frame_ReferenceIdeal := fun m ρ _ =>
  (θ_run Cert.ReferenceIdeal.defs _ _).mono (fun _ h c => (h c).2.2.2.2.2.2.2.2)
    (Cert.ReferenceIdeal.Value.run (F := Ideal) m ρ)

/-- The ideal pass rewrote no operation. -/
theorem preserves : Cert.preserves_Kernel_KernelIdeal := trivial

/-- Both programs end with result `k` at the product of arguments `2k` and `2k + 1`: the kernel's run at its own
    memory, the reference's at a memory that agrees with it on the arguments. -/
theorem algebraic : Cert.algebraic_KernelIdeal_ReferenceIdeal := by
  intro m ρ m' ρ' _ hagree
  refine ⟨(fun c => MatProd.matProd (M := 512) (K := 1024) (N := 1024) (m ((c.tc : Thread Cert.KernelIdeal.nD Cert.KernelIdeal.τ).loc Cert.KernelIdeal.main_arg0)) (m ((c.tc : Thread Cert.KernelIdeal.nD Cert.KernelIdeal.τ).loc Cert.KernelIdeal.main_arg1))),
    (fun c => MatProd.matProd (M := 1024) (K := 1024) (N := 1024) (m ((c.tc : Thread Cert.KernelIdeal.nD Cert.KernelIdeal.τ).loc Cert.KernelIdeal.main_arg2)) (m ((c.tc : Thread Cert.KernelIdeal.nD Cert.KernelIdeal.τ).loc Cert.KernelIdeal.main_arg3))),
    (fun c => MatProd.matProd (M := 2048) (K := 1024) (N := 1024) (m ((c.tc : Thread Cert.KernelIdeal.nD Cert.KernelIdeal.τ).loc Cert.KernelIdeal.main_arg4)) (m ((c.tc : Thread Cert.KernelIdeal.nD Cert.KernelIdeal.τ).loc Cert.KernelIdeal.main_arg5))),
    (fun c => MatProd.matProd (M := 4096) (K := 1024) (N := 1024) (m ((c.tc : Thread Cert.KernelIdeal.nD Cert.KernelIdeal.τ).loc Cert.KernelIdeal.main_arg6)) (m ((c.tc : Thread Cert.KernelIdeal.nD Cert.KernelIdeal.τ).loc Cert.KernelIdeal.main_arg7))),
    (fun c => MatProd.matProd (M := 1536) (K := 1024) (N := 1024) (m ((c.tc : Thread Cert.KernelIdeal.nD Cert.KernelIdeal.τ).loc Cert.KernelIdeal.main_arg8)) (m ((c.tc : Thread Cert.KernelIdeal.nD Cert.KernelIdeal.τ).loc Cert.KernelIdeal.main_arg9))),
    (fun c => MatProd.matProd (M := 768) (K := 1024) (N := 1024) (m ((c.tc : Thread Cert.KernelIdeal.nD Cert.KernelIdeal.τ).loc Cert.KernelIdeal.main_arg10)) (m ((c.tc : Thread Cert.KernelIdeal.nD Cert.KernelIdeal.τ).loc Cert.KernelIdeal.main_arg11))),
    (fun c => MatProd.matProd (M := 3072) (K := 1024) (N := 1024) (m ((c.tc : Thread Cert.KernelIdeal.nD Cert.KernelIdeal.τ).loc Cert.KernelIdeal.main_arg12)) (m ((c.tc : Thread Cert.KernelIdeal.nD Cert.KernelIdeal.τ).loc Cert.KernelIdeal.main_arg13))),
    (fun c => MatProd.matProd (M := 2560) (K := 1024) (N := 1024) (m ((c.tc : Thread Cert.KernelIdeal.nD Cert.KernelIdeal.τ).loc Cert.KernelIdeal.main_arg14)) (m ((c.tc : Thread Cert.KernelIdeal.nD Cert.KernelIdeal.τ).loc Cert.KernelIdeal.main_arg15))),
    Cert.KernelIdeal.Products.run m ρ, ?_⟩
  refine (θ_run Cert.ReferenceIdeal.defs _ _).mono (fun r h c => ⟨
      (h c).1.trans (congrArg₂ (MatProd.matProd (M := 512) (K := 1024) (N := 1024)) (hagree c).1 (hagree c).2.1),
      (h c).2.1.trans (congrArg₂ (MatProd.matProd (M := 1024) (K := 1024) (N := 1024)) (hagree c).2.2.1 (hagree c).2.2.2.1),
      (h c).2.2.1.trans (congrArg₂ (MatProd.matProd (M := 2048) (K := 1024) (N := 1024)) (hagree c).2.2.2.2.1 (hagree c).2.2.2.2.2.1),
      (h c).2.2.2.1.trans (congrArg₂ (MatProd.matProd (M := 4096) (K := 1024) (N := 1024)) (hagree c).2.2.2.2.2.2.1 (hagree c).2.2.2.2.2.2.2.1),
      (h c).2.2.2.2.1.trans (congrArg₂ (MatProd.matProd (M := 1536) (K := 1024) (N := 1024)) (hagree c).2.2.2.2.2.2.2.2.1 (hagree c).2.2.2.2.2.2.2.2.2.1),
      (h c).2.2.2.2.2.1.trans (congrArg₂ (MatProd.matProd (M := 768) (K := 1024) (N := 1024)) (hagree c).2.2.2.2.2.2.2.2.2.2.1 (hagree c).2.2.2.2.2.2.2.2.2.2.2.1),
      (h c).2.2.2.2.2.2.1.trans (congrArg₂ (MatProd.matProd (M := 3072) (K := 1024) (N := 1024)) (hagree c).2.2.2.2.2.2.2.2.2.2.2.2.1 (hagree c).2.2.2.2.2.2.2.2.2.2.2.2.2.1),
      (h c).2.2.2.2.2.2.2.1.trans (congrArg₂ (MatProd.matProd (M := 2560) (K := 1024) (N := 1024)) (hagree c).2.2.2.2.2.2.2.2.2.2.2.2.2.2.1 (hagree c).2.2.2.2.2.2.2.2.2.2.2.2.2.2.2),
      (h c).2.2.2.2.2.2.2.2⟩)
    (Cert.ReferenceIdeal.Products.run m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
